-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S64x16 .f32) (main_arg9 : FVec F S64x16 .f32) (main_arg10 : FVec F S16 .f32) (main_v33 : IVec S_ 1) : IVec S_ 1 :=
  let main_v34 : FVec F S64x16 .f32 := Host.absf main_arg8
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S64x16 .f32 := Host.absf main_arg9
  let main_cst_14 : FVec F S_ .f32 := constant S_ .f32 0x7F800000#32
  let main_v40 : FVec F S64x16 .f32 := broadcastInDim S64x16 ![] bcast_S_S64x16 main_cst_14
  let main_v41 : IVec S64x16 1 := cmpf .olt main_v39 main_v40
  let main_c_15 : IVec S_ 1 := constantI S_ 1 1#1
  let main_v42 : IVec S_ 1 := (fun x v => Host.reduce IntOp.andi x v reducesTo_S64x16_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg5 : FVec F S64x64 .f32) (main_arg6 : FVec F S64x64 .f32) (main_arg7 : FVec F S64 .f32) (main_arg8 : FVec F S64x16 .f32) (main_arg9 : FVec F S64x16 .f32) (main_arg10 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1600000 32) (main_arg2 : FVec F S64x64 .f32) (main_arg3 : FVec F S64x64 .f32) (main_arg4 : FVec F S64 .f32) (main_arg5 : FVec F S64x64 .f32) (main_arg6 : FVec F S64x64 .f32) (main_arg7 : FVec F S64 .f32) (main_arg8 : FVec F S64x16 .f32) (main_arg9 : FVec F S64x16 .f32) (main_arg10 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S10000x64 : Shape := ⟨2, ![10000, 64]⟩
abbrev S10000x1 : Shape := ⟨2, ![10000, 1]⟩
abbrev S1x64 : Shape := ⟨2, ![1, 64]⟩
abbrev S100000x16 : Shape := ⟨2, ![100000, 16]⟩
abbrev S10000x16 : Shape := ⟨2, ![10000, 16]⟩
abbrev S1x16 : Shape := ⟨2, ![1, 16]⟩

abbrev nBuf : Space → Nat
  | .hbm => 77
  | .vmem => 33
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x16, .f32⟩
  | .hbm, ⟨9, _⟩ => ⟨S64x16, .f32⟩
  | .hbm, ⟨10, _⟩ => ⟨S16, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S100000x64, .f32⟩
  | .hbm, ⟨60, _⟩ => ⟨S_, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S100000x16, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x1, .f32⟩
  | .local _ .vmem, ⟨5, _⟩ => ⟨S10000x1, .f32⟩
  | .local _ .vmem, ⟨6, _⟩ => ⟨S64x64, .f32⟩
  | .local _ .vmem, ⟨7, _⟩ => ⟨S64x64, .f32⟩
  | .local _ .vmem, ⟨8, _⟩ => ⟨S64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x1, .f32⟩
  | .local _ .vmem, ⟨16, _⟩ => ⟨S10000x1, .f32⟩
  | .local _ .vmem, ⟨17, _⟩ => ⟨S64x64, .f32⟩
  | .local _ .vmem, ⟨18, _⟩ => ⟨S64x64, .f32⟩
  | .local _ .vmem, ⟨19, _⟩ => ⟨S64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x1, .f32⟩
  | .local _ .vmem, ⟨27, _⟩ => ⟨S10000x1, .f32⟩
  | .local _ .vmem, ⟨28, _⟩ => ⟨S64x16, .f32⟩
  | .local _ .vmem, ⟨29, _⟩ => ⟨S64x16, .f32⟩
  | .local _ .vmem, ⟨30, _⟩ => ⟨S16, .f32⟩
  | .local _ .vmem, ⟨31, _⟩ => ⟨S10000x16, .f32⟩
  | .local _ .vmem, ⟨32, _⟩ => ⟨S10000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call1_cst : Ref sig .tc := ⟨.hbm, 43, rfl⟩
abbrev main_call1_v0 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_7 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_call2_cst : Ref sig .tc := ⟨.hbm, 60, rfl⟩
abbrev main_call2_v0 : Ref sig .tc := ⟨.hbm, 61, rfl⟩
abbrev main_v35 : Ref sig .tc := ⟨.hbm, 62, rfl⟩
abbrev main_c_8 : Ref sig .tc := ⟨.hbm, 63, rfl⟩
abbrev main_v36 : Ref sig .tc := ⟨.hbm, 64, rfl⟩
abbrev main_v37 : Ref sig .tc := ⟨.hbm, 65, rfl⟩
abbrev main_c_9 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_10 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x16.size a ≤ S64x16.size a
  hwx2_3 : ∀ i : grid2.Coords, EltTy.bits .f32 = 32 ∨ (Rect.block (s := S64x16) S64x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x16.size a ≤ S64x16.size a
  hwx2_4 : ∀ i : grid2.Coords, EltTy.bits .f32 = 32 ∨ (Rect.block (s := S64x16) S64x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16.size a ≤ S16.size a
  hwx2_5 : ∀ i : grid2.Coords, EltTy.bits .f32 = 32 ∨ (Rect.block (s := S16) S16.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x16.size a ≤ S100000x16.size a
  hwx2_6 : ∀ i : grid2.Coords, EltTy.bits .f32 = 32 ∨ (Rect.block (s := S100000x16) S10000x16.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v23) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v35) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S10000x16.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x16 : Shape := ⟨2, ![100000, 16]⟩
abbrev S1x16 : Shape := ⟨2, ![1, 16]⟩

abbrev nBuf : Space → Nat
  | .hbm => 117
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x16, .f32⟩
  | .hbm, ⟨9, _⟩ => ⟨S64x16, .f32⟩
  | .hbm, ⟨10, _⟩ => ⟨S16, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S_, .f32⟩
  | .hbm, ⟨51, _⟩ => ⟨S1600000, .f32⟩
  | .hbm, ⟨52, _⟩ => ⟨S_, .f32⟩
  | .hbm, ⟨53, _⟩ => ⟨S100000, .f32⟩
  | .hbm, ⟨54, _⟩ => ⟨S1600000x1, .i32⟩
  | .hbm, ⟨55, _⟩ => ⟨S100000, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x64, .f32⟩
  | .hbm, ⟨65, _⟩ => ⟨S_, .f32⟩
  | .hbm, ⟨66, _⟩ => ⟨S100000x64, .f32⟩
  | .hbm, ⟨67, _⟩ => ⟨S1600000x1, .i32⟩
  | .hbm, ⟨68, _⟩ => ⟨S100000x64, .f32⟩
  | .hbm, ⟨69, _⟩ => ⟨S_, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S1600000, .f32⟩
  | .hbm, ⟨87, _⟩ => ⟨S_, .f32⟩
  | .hbm, ⟨88, _⟩ => ⟨S100000, .f32⟩
  | .hbm, ⟨89, _⟩ => ⟨S1600000x1, .i32⟩
  | .hbm, ⟨90, _⟩ => ⟨S100000, .f32⟩
  | .hbm, ⟨91, _⟩ => ⟨S_, .i32⟩
  | .hbm, ⟨92, _⟩ => ⟨S1600000, .i32⟩
  | .hbm, ⟨93, _⟩ => ⟨S1600000, .i1⟩
  | .hbm, ⟨94, _⟩ => ⟨S_, .i32⟩
  | .hbm, ⟨95, _⟩ => ⟨S1600000, .i32⟩
  | .hbm, ⟨96, _⟩ => ⟨S1600000, .i32⟩
  | .hbm, ⟨97, _⟩ => ⟨S1600000, .i32⟩
  | .hbm, ⟨98, _⟩ => ⟨S1600000x1, .i32⟩
  | .hbm, ⟨99, _⟩ => ⟨S1600000x64, .f32⟩
  | .hbm, ⟨100, _⟩ => ⟨S_, .f32⟩
  | .hbm, ⟨101, _⟩ => ⟨S100000x64, .f32⟩
  | .hbm, ⟨102, _⟩ => ⟨S1600000x1, .i32⟩
  | .hbm, ⟨103, _⟩ => ⟨S100000x64, .f32⟩
  | .hbm, ⟨104, _⟩ => ⟨S_, .f32⟩
  | .hbm, ⟨105, _⟩ => ⟨S_, .f32⟩
  | .hbm, ⟨106, _⟩ => ⟨S100000, .f32⟩
  | .hbm, ⟨107, _⟩ => ⟨S100000, .f32⟩
  | .hbm, ⟨108, _⟩ => ⟨S100000x1, .f32⟩
  | .hbm, ⟨109, _⟩ => ⟨S100000x64, .f32⟩
  | .hbm, ⟨110, _⟩ => ⟨S100000x64, .f32⟩
  | .hbm, ⟨111, _⟩ => ⟨S100000x16, .f32⟩
  | .hbm, ⟨112, _⟩ => ⟨S100000x16, .f32⟩
  | .hbm, ⟨113, _⟩ => ⟨S100000x16, .f32⟩
  | .hbm, ⟨114, _⟩ => ⟨S1x16, .f32⟩
  | .hbm, ⟨115, _⟩ => ⟨S100000x16, .f32⟩
  | .hbm, ⟨116, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call1_cst : Ref sig .tc := ⟨.hbm, 47, rfl⟩
abbrev main_call1_v0 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_call2_v0 : Ref sig .tc := ⟨.hbm, 70, rfl⟩
abbrev main_call2_v1 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_call3_cst : Ref sig .tc := ⟨.hbm, 82, rfl⟩
abbrev main_call3_v0 : Ref sig .tc := ⟨.hbm, 83, rfl⟩
abbrev main_v53 : Ref sig .tc := ⟨.hbm, 84, rfl⟩
abbrev main_cst_10 : Ref sig .tc := ⟨.hbm, 85, rfl⟩
abbrev main_v54 : Ref sig .tc := ⟨.hbm, 86, rfl⟩
abbrev main_cst_11 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_c_12 : Ref sig .tc := ⟨.hbm, 91, rfl⟩
abbrev main_v58 : Ref sig .tc := ⟨.hbm, 92, rfl⟩
abbrev main_v59 : Ref sig .tc := ⟨.hbm, 93, rfl⟩
abbrev main_c_13 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_14 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_15 : Ref sig .tc := ⟨.hbm, 104, rfl⟩
abbrev main_call4_v0 : Ref sig .tc := ⟨.hbm, 105, rfl⟩
abbrev main_call4_v1 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.SageLaw.lean ====
/-
  The one law that joins the two programs, on the extended reals.

  A mean-aggregating graph layer divides each row of the neighbour sum by the clipped in-degree
  `d = max 1 deg`. One program multiplies the row by the reciprocal `1 / d`, the other divides the row by `d`.
  On the extended reals the quotient by a divisor other than zero is the product with its inverse, so both are
  `x * d⁻¹`; and a maximum with `1` is at least `1`, hence never zero, whatever the degree count is.
  Nothing here needs the entries to be finite.
-/
import Idealize.ShloMosaic.PureOps.Ideal
import Idealize.ShloMosaic.PureOps.Ideal.Laws

namespace Cert.Sage

open Idealize.ShloMosaic

/-- The single-precision pattern of `1.0` denotes the extended real `1`. -/
theorem ofBits_one_f32 : Ideal.ofBits .f32 0x3F800000#32 = 1 := by
  simp [Ideal.ofBits, Ideal.ieee]
  rw [← EReal.coe_mul, ← EReal.coe_one]
  exact congrArg _ (by norm_num)

/-- A value clipped below at `1` is not zero: it is at least `1`. -/
theorem one_max_ne_zero (x : EReal) : max (1 : EReal) x ≠ 0 :=
  (lt_of_lt_of_le zero_lt_one (le_max_left 1 x)).ne'

/-- Off zero, multiplying by the reciprocal is dividing: both are the product with the inverse. -/
theorem mul_one_div (x d : EReal) (hd : d ≠ 0) : x * Ideal.div 1 d = Ideal.div x d := by
  unfold Ideal.div
  rw [if_neg hd, if_neg hd, one_mul]

/-- The row scaling of the two programs agrees at a clipped degree. -/
theorem mul_recip_clip (x deg : EReal) :
    x * Ideal.div 1 (max 1 deg) = Ideal.div x (max 1 deg) :=
  mul_one_div x _ (one_max_ne_zero deg)

end Cert.Sage
-- ==== Proof.LayerSpec.lean ====
/-
  One mean-aggregating graph layer as a function of whole arrays, entry by entry.

  For node `r` and output column `j` the layer's value is

      (Σₖ h[r,k]·Ws[k,j])  +  (Σₖ (A[r,k]·s[r])·Wn[k,j])  +  b[j]

  where `h` holds the node features, `A` the sums of the in-neighbours' features, `s` the per-node scale
  (the reciprocal of the clipped in-degree), `Ws`, `Wn` the two weight matrices and `b` the bias. `entry` is that
  expression over one row of `h`, one row of `A`, the node's scale, one column of each weight matrix and one bias entry;
  `layer` reads those rows and columns out of the arrays at an index of the output. The width `d` of the output (64 for
  the hidden layers, 16 for the last) is a parameter; the contracted width is 64 throughout.

  `entryDiv` is the same expression with each neighbour sum DIVIDED by the clipped degree instead of multiplied by its
  reciprocal, and `entry_recip_eq` says the two agree: the one law of Proof/SageLaw.lean under the sum.
-/
import Idealize.ShloMosaic.PureOps.Ideal
import Idealize.ShloMosaic.Lib.ValueIdx
import proofs.«109321_j26998164422767_1_alg».proof.Proof.SageLaw

noncomputable section

open scoped BigOperators

namespace Cert.Sage

open Idealize.ShloMosaic Idealize.ShloMosaic.ValueIdx

/-- One entry of a layer's output from a row of features, a row of neighbour sums, the node's scale, a column of each
    weight matrix and a bias entry. -/
def entry (hrow arow : Fin 64 → EReal) (s : EReal) (ws wn : Fin 64 → EReal) (b : EReal) : EReal :=
  ((∑ k : Fin 64, hrow k * ws k) + (∑ k : Fin 64, (arow k * s) * wn k)) + b

/-- Equal rows, scales, columns and bias give equal entries. -/
theorem entry_congr {hrow hrow' arow arow' : Fin 64 → EReal} {s s' : EReal} {ws ws' wn wn' : Fin 64 → EReal} {b b' : EReal}
    (e0 : ∀ k, hrow k = hrow' k) (e1 : ∀ k, arow k = arow' k) (e2 : s = s') (e3 : ∀ k, ws k = ws' k)
    (e4 : ∀ k, wn k = wn' k) (e5 : b = b') :
    entry hrow arow s ws wn b = entry hrow' arow' s' ws' wn' b' := by
  obtain rfl : hrow = hrow' := funext e0
  obtain rfl : arow = arow' := funext e1
  obtain rfl : ws = ws' := funext e3
  obtain rfl : wn = wn' := funext e4
  subst e2 e5
  rfl

/-- The same entry with each neighbour sum divided by the clipped degree. -/
def entryDiv (hrow arow : Fin 64 → EReal) (dg : EReal) (ws wn : Fin 64 → EReal) (b : EReal) : EReal :=
  ((∑ k : Fin 64, hrow k * ws k) + (∑ k : Fin 64, Ideal.div (arow k) dg * wn k)) + b

/-- Scaling by the reciprocal of a clipped degree is dividing by it, entry by entry. -/
theorem entry_recip_eq (hrow arow : Fin 64 → EReal) (deg : EReal) (ws wn : Fin 64 → EReal) (b : EReal) :
    entry hrow arow (Ideal.div 1 (max 1 deg)) ws wn b = entryDiv hrow arow (max 1 deg) ws wn b := by
  unfold entry entryDiv
  simp only [mul_recip_clip]

/-- The layer's output array as one function of its six input arrays. -/
def layer {d : Nat} (h a : (⟨2, ![100000, 64]⟩ : Shape).Idx → EReal) (invd : (⟨2, ![100000, 1]⟩ : Shape).Idx → EReal)
    (ws wn : (⟨2, ![64, d]⟩ : Shape).Idx → EReal) (b : (⟨1, ![d]⟩ : Shape).Idx → EReal) :
    (⟨2, ![100000, d]⟩ : Shape).Idx → EReal :=
  fun i => entry (fun k => h (ix2 ⟨(i 0).val, idx2_lt0 i⟩ k)) (fun k => a (ix2 ⟨(i 0).val, idx2_lt0 i⟩ k))
    (invd (ix2 ⟨(i 0).val, idx2_lt0 i⟩ (0 : Fin 1)))
    (fun k => ws (ix2 k ⟨(i 1).val, idx2_lt1 i⟩)) (fun k => wn (ix2 k ⟨(i 1).val, idx2_lt1 i⟩))
    (b (ix1 ⟨(i 1).val, idx2_lt1 i⟩))

end Cert.Sage

end
-- ==== Proof.HostFns.lean ====
/-
  The host-side stages both programs share, and the three results as closed terms of the eleven arguments.

  From the edge array `e : [2, 1600000]` of node numbers: `srcOf e` and `dstOf e` are its two rows, flattened.
  `aggOf h s d` gathers row `s[j]` of `h` for every edge `j` (a negative number wrapped by adding the node count, the
  gather clamping the rest) and adds it into row `d[j]` of a zero array (an edge whose target is no node is dropped):
  the sum of each node's in-neighbours' features. `clipOf d` is the in-degree count, clipped below at one, and
  `invOf d` its reciprocal as a column. `reluOf` is the maximum with zero.

  With `layer` of Proof/LayerSpec.lean the program's results are then three nested terms: `out0` the first layer of
  the input features, `out1` the second layer of `reluOf out0`, `out2` the last layer (width 16) of `reluOf out1`; every layer
  uses the same edges and so the same scale column.
-/
import proofs.«109321_j26998164422767_1_alg».proof.Proof.Gen.KernelIdeal
import proofs.«109321_j26998164422767_1_alg».proof.Proof.LayerSpec

noncomputable section

namespace Cert.Sage.Fns

open Cert.KernelIdeal Cert.KernelIdeal.Gen Idealize.ShloMosaic

section AnyInstance
variable {F : FTy → Type} [FloatOps F]

/-- The edges' source nodes: row 0 of the edge array. -/
def srcOf (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The edges' target nodes: row 1 of the edge array. -/
def dstOf (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- For every node, the sum of the rows of `h` at the sources of the edges that end in it. -/
def aggOf (h : (⟨S100000x64, .f32⟩ : BufTy).Contents (Elt F)) (s d : (⟨S1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d)
    (Host.gather gather_S100000x64_S1600000x1_S1600000x64_1_0_n_n_0_1_164 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- For every node, the number of edges that end in it: a one added per edge into a zero vector. -/
def degOf (d : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 d)
    (broadcastInDim S1600000 ![] bcast_S_S1600000 (constant S_ .f32 0x3F800000#32))

/-- That count clipped below at one. -/
def clipOf (d : (⟨S1600000, .i32⟩ : BufTy).Contents (Elt F)) : (⟨S100000, .f32⟩ : BufTy).Contents (Elt F) :=
  maximumf (broadcastInDim S100000 ![] bcast_S_S100000 (id (constant S_ .f32 0x3F800000#32))) (degOf d)

/-- The reciprocal of the clipped in-degree, as a column. -/
def invOf (d : (⟨S1600000, .i32⟩ : BufTy).Contents (Elt F)) : (⟨S100000x1, .f32⟩ : BufTy).Contents (Elt F) :=
  shapeCast _ (Host.divf (broadcastInDim S100000 ![] bcast_S_S100000 (constant S_ .f32 0x3F800000#32)) (clipOf d))
    shapeCasts_S100000_S100000x1

/-- The maximum with zero. -/
def reluOf (x : (⟨S100000x64, .f32⟩ : BufTy).Contents (Elt F)) : (⟨S100000x64, .f32⟩ : BufTy).Contents (Elt F) :=
  maximumf x (broadcastInDim S100000x64 ![] bcast_S_S100000x64 (constant S_ .f32 0x00000000#32))

end AnyInstance

/-! ## The three results on the extended reals -/

section Results
variable (feat : (⟨S100000x64, .f32⟩ : BufTy).Contents (Elt Ideal)) (e : (⟨S2x1600000, .i32⟩ : BufTy).Contents (Elt Ideal))
  (ws0 wn0 : (⟨S64x64, .f32⟩ : BufTy).Contents (Elt Ideal)) (b0 : (⟨S64, .f32⟩ : BufTy).Contents (Elt Ideal))
  (ws1 wn1 : (⟨S64x64, .f32⟩ : BufTy).Contents (Elt Ideal)) (b1 : (⟨S64, .f32⟩ : BufTy).Contents (Elt Ideal))
  (ws2 wn2 : (⟨S64x16, .f32⟩ : BufTy).Contents (Elt Ideal)) (b2 : (⟨S16, .f32⟩ : BufTy).Contents (Elt Ideal))

/-- The first layer's output. -/
def out0 : (⟨S100000x64, .f32⟩ : BufTy).Contents (Elt Ideal) :=
  layer (d := 64) feat (aggOf feat (srcOf e) (dstOf e)) (invOf (dstOf e)) ws0 wn0 b0

/-- The second layer's output. -/
def out1 : (⟨S100000x64, .f32⟩ : BufTy).Contents (Elt Ideal) :=
  layer (d := 64) (reluOf (out0 feat e ws0 wn0 b0)) (aggOf (reluOf (out0 feat e ws0 wn0 b0)) (srcOf e) (dstOf e))
    (invOf (dstOf e)) ws1 wn1 b1

/-- The last layer's output. -/
def out2 : (⟨S100000x16, .f32⟩ : BufTy).Contents (Elt Ideal) :=
  layer (d := 16) (reluOf (out1 feat e ws0 wn0 b0 ws1 wn1 b1)) (aggOf (reluOf (out1 feat e ws0 wn0 b0 ws1 wn1 b1)) (srcOf e) (dstOf e))
    (invOf (dstOf e)) ws2 wn2 b2

end Results

end Cert.Sage.Fns

end
-- ==== Proof.KernelDots.lean ====
/-
  The kernel's two block products read at an index, on the extended reals.

  Each grid point multiplies a [10000, 64] block of rows by a [64, 64] (or, in the last layer, [64, 16]) weight
  matrix into a zero accumulator. At row `p` and column `j` that is the plain sum Σₖ x[p,k]·y[k,j] over the 64
  contracted positions: the product's dimension numbers contract the block's second axis with the matrix's first, the
  row comes from the output's first coordinate and the column from its second.
-/
import proofs.«109321_j26998164422767_1_alg».proof.Proof.Gen.KernelIdeal
import Idealize.ShloMosaic.Lib.ValueIdx
import Idealize.ShloMosaic.PureOps.Ideal.Laws

noncomputable section

open scoped BigOperators

namespace Cert.Sage.KDots

open Cert.KernelIdeal Cert.KernelIdeal.Gen Idealize.ShloMosaic Idealize.ShloMosaic.ValueIdx

/-! ### The record `dot_S10000x64_S64x64_S10000x64_1_0_0_1_n_n`: rows of a [10000, 64] block against a [64, 64] matrix -/

theorem lhs64_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs64_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs64_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs64_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block product into a zero accumulator, read at row `p` and column `j`: the sum over the 64 contracted
    positions of the left operand's row `p` times the right operand's column `j`. -/
theorem matmul64_at {φ₁ φ₂ : FTy} (x : FVec Ideal S10000x64 φ₁) (y : FVec Ideal S64x64 φ₂) (p : Fin 10000) (j : Fin 64) :
    matmul dot_S10000x64_S64x64_S10000x64_1_0_0_1_n_n none x y (constant S10000x64 .f32 0x00000000#32) (ix2 p j)
      = ∑ k : Fin 64, x (ix2 p k) * y (ix2 k j) := by
  refine (Ideal.matmul_constant_zero_apply dot_S10000x64_S64x64_S10000x64_1_0_0_1_n_n none x y (ix2 p j)).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p j) ((ValueIdx.contrEquiv1 dot_S10000x64_S64x64_S10000x64_1_0_0_1_n_n 64 rfl rfl).symm k) = ix2 p k := funext fun a => Fin.ext (by
    match a with
    | ⟨0, _⟩ => exact lhs64_0 _ _
    | ⟨1, _⟩ => exact (lhs64_1 _ _).trans hk)
  have er : dot_S10000x64_S64x64_S10000x64_1_0_0_1_n_n.rhsIdx (ix2 p j) ((ValueIdx.contrEquiv1 dot_S10000x64_S64x64_S10000x64_1_0_0_1_n_n 64 rfl rfl).symm k) = ix2 k j := funext fun a => Fin.ext (by
    match a with
    | ⟨0, _⟩ => exact (rhs64_0 _ _).trans hk
    | ⟨1, _⟩ => exact rhs64_1 _ _)
  rw [el, er]

/-! ### The record `dot_S10000x64_S64x16_S10000x16_1_0_0_1_n_n`: rows of a [10000, 64] block against a [64, 16] matrix -/

theorem lhs16_0 (i : S10000x16.Idx) (q : dot_S10000x64_S64x16_S10000x16_1_0_0_1_n_n.contr.Idx) :
    (dot_S10000x64_S64x16_S10000x16_1_0_0_1_n_n.lhsIdx i q 0).val = (i 0).val := by
  unfold DotDims.lhsIdx
  rw [dif_neg (show ¬(0 : Fin S10000x64.rank) ∈ dot_S10000x64_S64x16_S10000x16_1_0_0_1_n_n.lhsBatch by decide), dif_pos (show (0 : Fin S10000x64.rank) ∈ dot_S10000x64_S64x16_S10000x16_1_0_0_1_n_n.lhsNonContracting by decide)]
  rfl
theorem lhs16_1 (i : S10000x16.Idx) (q : dot_S10000x64_S64x16_S10000x16_1_0_0_1_n_n.contr.Idx) :
    (dot_S10000x64_S64x16_S10000x16_1_0_0_1_n_n.lhsIdx i q 1).val = (q ⟨0, by decide⟩).val :=
  dot_S10000x64_S64x16_S10000x16_1_0_0_1_n_n.lhsIdx_val_of_single rfl i q
theorem rhs16_0 (i : S10000x16.Idx) (q : dot_S10000x64_S64x16_S10000x16_1_0_0_1_n_n.contr.Idx) :
    (dot_S10000x64_S64x16_S10000x16_1_0_0_1_n_n.rhsIdx i q 0).val = (q ⟨0, by decide⟩).val :=
  dot_S10000x64_S64x16_S10000x16_1_0_0_1_n_n.rhsIdx_val_of_single rfl i q
theorem rhs16_1 (i : S10000x16.Idx) (q : dot_S10000x64_S64x16_S10000x16_1_0_0_1_n_n.contr.Idx) :
    (dot_S10000x64_S64x16_S10000x16_1_0_0_1_n_n.rhsIdx i q 1).val = (i 1).val := by
  unfold DotDims.rhsIdx
  rw [dif_neg (show ¬(1 : Fin S64x16.rank) ∈ dot_S10000x64_S64x16_S10000x16_1_0_0_1_n_n.rhsBatch by decide), dif_pos (show (1 : Fin S64x16.rank) ∈ dot_S10000x64_S64x16_S10000x16_1_0_0_1_n_n.rhsNonContracting by decide)]
  rfl

/-- The block product into a zero accumulator, read at row `p` and column `j`: the sum over the 64 contracted
    positions of the left operand's row `p` times the right operand's column `j`. -/
theorem matmul16_at {φ₁ φ₂ : FTy} (x : FVec Ideal S10000x64 φ₁) (y : FVec Ideal S64x16 φ₂) (p : Fin 10000) (j : Fin 16) :
    matmul dot_S10000x64_S64x16_S10000x16_1_0_0_1_n_n none x y (constant S10000x16 .f32 0x00000000#32) (ix2 p j)
      = ∑ k : Fin 64, x (ix2 p k) * y (ix2 k j) := by
  refine (Ideal.matmul_constant_zero_apply dot_S10000x64_S64x16_S10000x16_1_0_0_1_n_n none x y (ix2 p j)).trans ?_
  rw [← Equiv.sum_comp (ValueIdx.contrEquiv1 dot_S10000x64_S64x16_S10000x16_1_0_0_1_n_n 64 rfl rfl).symm]
  refine Finset.sum_congr rfl fun k _ => ?_
  have hk := ValueIdx.contrEquiv1_symm_val dot_S10000x64_S64x16_S10000x16_1_0_0_1_n_n 64 rfl rfl k
  have el : dot_S10000x64_S64x16_S10000x16_1_0_0_1_n_n.lhsIdx (ix2 p j) ((ValueIdx.contrEquiv1 dot_S10000x64_S64x16_S10000x16_1_0_0_1_n_n 64 rfl rfl).symm k) = ix2 p k := funext fun a => Fin.ext (by
    match a with
    | ⟨0, _⟩ => exact lhs16_0 _ _
    | ⟨1, _⟩ => exact (lhs16_1 _ _).trans hk)
  have er : dot_S10000x64_S64x16_S10000x16_1_0_0_1_n_n.rhsIdx (ix2 p j) ((ValueIdx.contrEquiv1 dot_S10000x64_S64x16_S10000x16_1_0_0_1_n_n 64 rfl rfl).symm k) = ix2 k j := funext fun a => Fin.ext (by
    match a with
    | ⟨0, _⟩ => exact (rhs16_0 _ _).trans hk
    | ⟨1, _⟩ => exact rhs16_1 _ _)
  rw [el, er]

end Cert.Sage.KDots

end
-- ==== Proof.Region0.lean ====
/-
  Region 0 of the program (the layer with output width 64), as a value: what its output array holds when the region
  is left, as one function of the six arrays it reads, whatever the buffers hold when the region is entered.

  The grid has ten points; point `t` reads rows `10000·t … 10000·t + 9999` of the feature array, of the neighbour-sum
  array and of the scale column, the two weight matrices and the bias whole, and writes the same rows of the output.
  Its body computes, at row `p` of the block and column `j`,
  `(Σₖ x[p,k]·Ws[k,j]) + (Σₖ (a[p,k]·s[p])·Wn[k,j]) + b[j]` (`pay_at`): the two block products into a zero accumulator are
  plain sums, a change of float format is the identity on the extended reals, the scale column is broadcast along the
  row and the bias along the column. Read through the blocks that is block `t` of `Cert.Sage.layer` of the whole arrays
  (`flushed_eq`); the ten blocks cover the output array (`cover`), so the array ends at that function (`final`).
-/
import proofs.«109321_j26998164422767_1_alg».proof.Proof.Gen.KernelIdeal.Frame
import proofs.«109321_j26998164422767_1_alg».proof.Proof.LayerSpec
import proofs.«109321_j26998164422767_1_alg».proof.Proof.KernelDots
import Idealize.ShloMosaic.Lib.Pipeline.Value
import Idealize.ShloMosaic.Lib.ValueLayout

set_option maxRecDepth 16384

noncomputable section

open scoped BigOperators

namespace Cert.Sage.Region0

open Cert.KernelIdeal Cert.KernelIdeal.Gen Idealize.ShloMosaic Idealize.ShloMosaic.TcCoe Idealize.SL.Sem
open Idealize.ShloMosaic.ValueIdx
open Idealize.ShloMosaic.Pipeline (Dat)

/-- The scale column broadcast along the row: a [10000, 1] block broadcast to [10000, 64] reads, at `(p, k)`, the
    column's entry of row `p`. -/
theorem bcast_col (v : (⟨2, ![10000, 1]⟩ : Shape).Idx → EReal) (h : (⟨2, ![10000, 1]⟩ : Shape).Broadcasts ⟨2, ![10000, 64]⟩)
    (p : Fin 10000) (k : Fin 64) : broadcastTo ⟨2, ![10000, 64]⟩ v h (ix2 p k) = v (ix2 p (0 : Fin 1)) := by
  refine broadcastTo_apply v h (ix2 p k) (ix2 p (0 : Fin 1)) fun ax => ?_
  match ax with
  | ⟨0, _⟩ => rfl
  | ⟨1, _⟩ => rfl

/-- The body's stored value at row `p` and column `j` of the block. -/
theorem pay_at (x0 x1 : Vec Ideal S10000x64 .f32) (x2 : Vec Ideal S10000x1 .f32) (x3 x4 : Vec Ideal S64x64 .f32)
    (x5 : Vec Ideal S64 .f32) (p : Fin 10000) (j : Fin 64) :
    k0_pay1 (F := Ideal) x0 x1 x2 x3 x4 x5 (ix2 p j)
      = entry (fun k => x0 (ix2 p k)) (fun k => x1 (ix2 p k)) (x2 (ix2 p (0 : Fin 1)))
          (fun k => x3 (ix2 k j)) (fun k => x4 (ix2 k j)) (x5 (ix1 j)) := by
  unfold k0_pay1 entry
  dsimp only
  rw [addf_apply, addf_apply, KDots.matmul64_at, KDots.matmul64_at, broadcastTo_1b_ab_apply, shapeCast_a_1a_apply]
  simp only [truncf_apply, mulf_apply, shapeCast_self, bcast_col]

/-- The same at an index of the block given whole. -/
theorem pay_at' (x0 x1 : Vec Ideal S10000x64 .f32) (x2 : Vec Ideal S10000x1 .f32) (x3 x4 : Vec Ideal S64x64 .f32)
    (x5 : Vec Ideal S64 .f32) (y : S10000x64.Idx) :
    k0_pay1 (F := Ideal) x0 x1 x2 x3 x4 x5 y
      = entry (fun k => x0 (ix2 ⟨(y 0).val, idx2_lt0 y⟩ k)) (fun k => x1 (ix2 ⟨(y 0).val, idx2_lt0 y⟩ k))
          (x2 (ix2 ⟨(y 0).val, idx2_lt0 y⟩ (0 : Fin 1)))
          (fun k => x3 (ix2 k ⟨(y 1).val, idx2_lt1 y⟩)) (fun k => x4 (ix2 k ⟨(y 1).val, idx2_lt1 y⟩))
          (x5 (ix1 ⟨(y 1).val, idx2_lt1 y⟩)) := by
  have hy : y = ix2 ⟨(y 0).val, idx2_lt0 y⟩ ⟨(y 1).val, idx2_lt1 y⟩ :=
    funext fun a => by match a with | ⟨0, _⟩ => rfl | ⟨1, _⟩ => rfl
  exact (congrArg (k0_pay1 (F := Ideal) x0 x1 x2 x3 x4 x5) hy).trans
    (pay_at x0 x1 x2 x3 x4 x5 ⟨(y 0).val, idx2_lt0 y⟩ ⟨(y 1).val, idx2_lt1 y⟩)

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the three row-blocked inputs and the output move with the point along the
    rows and stay at column block zero; the weights and the bias stay at block zero. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

section
variable (V : (c : Dev nD) → (b : Ref sig .tc) → Buf (Elt Ideal) ((c : Thread nD τ).loc b))

/-- What point `t` writes back is block `t` of the layer function of the arrays as the region finds them. -/
theorem flushed_eq (c : Dev nD) (t : Fin cfg0.N) :
    (dat0 V c).flushed 6 t = ((cfg0.win 6).blk t).view.read (Elt Ideal)
      (layer (d := 64) (V c main_arg0) (V c main_v21) (V c main_v11) (V c main_arg2) (V c main_arg3) (V c main_arg4)) := by
  show (cfg0.win 6).cut (grid0.coords t) ((dat0 V c).after 6 t) = _
  rw [after0_6]
  unfold out0_6
  rw [View.canon_unit_zero hz2]
  simp only [View.ld_unit_zero (S := S10000x64) hz2, View.ld_unit_zero (S := S10000x1) hz2,
    View.ld_unit_zero (S := S64x64) hz2, View.ld_unit_zero (S := S64) hz1]
  obtain ⟨a0, a1, b0, b1, c0, c1, d0, d1, e0, e1, f0, g0, g1⟩ := idx_facts t
  funext y
  show k0_pay1 (F := Ideal) (iblk0 V c 0 t) (iblk0 V c 1 t) (iblk0 V c 2 t) (iblk0 V c 3 t) (iblk0 V c 4 t) (iblk0 V c 5 t) y
    = layer (d := 64) (V c main_arg0) (V c main_v21) (V c main_v11) (V c main_arg2) (V c main_arg3) (V c main_arg4) (((cfg0.win 6).blk t).view.emb y)
  refine (pay_at' (iblk0 V c 0 t) (iblk0 V c 1 t) (iblk0 V c 2 t) (iblk0 V c 3 t) (iblk0 V c 4 t) (iblk0 V c 5 t) y).trans ?_
  unfold layer
  have hy0 : (y 0).val < 10000 := (y 0).isLt
  have hy1 : (y 1).val < 64 := (y 1).isLt
  refine entry_congr (fun k => ?_) (fun k => ?_) ?_ (fun k => ?_) (fun k => ?_) ?_
  · show V c main_arg0 (((cfg0.win 0).blk t).view.emb (ix2 ⟨(y 0).val, idx2_lt0 y⟩ k)) = _
    refine congrArg (V c main_arg0) (funext fun a => Fin.ext ?_)
    match a with
    | ⟨0, _⟩ => show win0_0.index t (0 : Fin 2) * 10000 + 1 * (y 0).val = win0_6.index t (0 : Fin 2) * 10000 + 1 * (y 0).val; omega
    | ⟨1, _⟩ => show win0_0.index t (1 : Fin 2) * 64 + 1 * k.val = k.val; omega
  · show V c main_v21 (((cfg0.win 1).blk t).view.emb (ix2 ⟨(y 0).val, idx2_lt0 y⟩ k)) = _
    refine congrArg (V c main_v21) (funext fun a => Fin.ext ?_)
    match a with
    | ⟨0, _⟩ => show win0_1.index t (0 : Fin 2) * 10000 + 1 * (y 0).val = win0_6.index t (0 : Fin 2) * 10000 + 1 * (y 0).val; omega
    | ⟨1, _⟩ => show win0_1.index t (1 : Fin 2) * 64 + 1 * k.val = k.val; omega
  · show V c main_v11 (((cfg0.win 2).blk t).view.emb (ix2 ⟨(y 0).val, idx2_lt0 y⟩ (0 : Fin 1))) = _
    refine congrArg (V c main_v11) (funext fun a => Fin.ext ?_)
    match a with
    | ⟨0, _⟩ => show win0_2.index t (0 : Fin 2) * 10000 + 1 * (y 0).val = win0_6.index t (0 : Fin 2) * 10000 + 1 * (y 0).val; omega
    | ⟨1, _⟩ => show win0_2.index t (1 : Fin 2) * 1 + 1 * 0 = 0; omega
  · show V c main_arg2 (((cfg0.win 3).blk t).view.emb (ix2 k ⟨(y 1).val, idx2_lt1 y⟩)) = _
    refine congrArg (V c main_arg2) (funext fun a => Fin.ext ?_)
    match a with
    | ⟨0, _⟩ => show win0_3.index t (0 : Fin 2) * 64 + 1 * k.val = k.val; omega
    | ⟨1, _⟩ => show win0_3.index t (1 : Fin 2) * 64 + 1 * (y 1).val = win0_6.index t (1 : Fin 2) * 64 + 1 * (y 1).val; omega
  · show V c main_arg3 (((cfg0.win 4).blk t).view.emb (ix2 k ⟨(y 1).val, idx2_lt1 y⟩)) = _
    refine congrArg (V c main_arg3) (funext fun a => Fin.ext ?_)
    match a with
    | ⟨0, _⟩ => show win0_4.index t (0 : Fin 2) * 64 + 1 * k.val = k.val; omega
    | ⟨1, _⟩ => show win0_4.index t (1 : Fin 2) * 64 + 1 * (y 1).val = win0_6.index t (1 : Fin 2) * 64 + 1 * (y 1).val; omega
  · show V c main_arg4 (((cfg0.win 5).blk t).view.emb (ix1 ⟨(y 1).val, idx2_lt1 y⟩)) = _
    refine congrArg (V c main_arg4) (funext fun a => Fin.ext ?_)
    match a with
    | ⟨0, _⟩ => show win0_5.index t (0 : Fin 1) * 64 + 1 * (y 1).val = win0_6.index t (1 : Fin 2) * 64 + 1 * (y 1).val; omega

/-- An index of the output array lies in point `t`'s block iff each coordinate lies in the block's range. -/
theorem mem_blk (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v22).slice (win0_6.rect t)).set ↔ _
  rw [View.set_slice_whole, Rect.mem_set_unit]
  exact Iff.rfl

/-- Every index of the output array lies in the block of the point its row falls in. -/
theorem cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : (i 0).val / 10000 < cfg0.N := by rw [show cfg0.N = 10 from N_0]; omega
  obtain ⟨-, -, -, -, -, -, -, -, -, -, -, g0, g1⟩ := idx_facts ⟨(i 0).val / 10000, hN⟩
  have g0' : win0_6.index ⟨(i 0).val / 10000, hN⟩ (0 : Fin 2) = (i 0).val / 10000 := g0
  refine ⟨⟨(i 0).val / 10000, hN⟩, flush0_6 _, ?_⟩
  rw [mem_blk]
  intro a
  match a with
  | ⟨0, _⟩ => show win0_6.index ⟨(i 0).val / 10000, hN⟩ (0 : Fin 2) * 10000 ≤ (i 0).val ∧ (i 0).val < win0_6.index ⟨(i 0).val / 10000, hN⟩ (0 : Fin 2) * 10000 + 10000; omega
  | ⟨1, _⟩ => show win0_6.index ⟨(i 0).val / 10000, hN⟩ (1 : Fin 2) * 64 ≤ (i 1).val ∧ (i 1).val < win0_6.index ⟨(i 0).val / 10000, hN⟩ (1 : Fin 2) * 64 + 64; omega

/-- The output array when the region is left: the layer function of the six arrays the region reads. -/
theorem final (c : Dev nD) :
    (dat0 V c).arrAt 6 cfg0.N
      = layer (d := 64) (V c main_arg0) (V c main_v21) (V c main_v11) (V c main_arg2) (V c main_arg3) (V c main_arg4) :=
  (dat0 V c).arrAt_eq_of_cover 6 _ (fun t _ => flushed_eq V c t) cover

end

end Cert.Sage.Region0

end
-- ==== Proof.Region1.lean ====
/-
  Region 1 of the program (the layer with output width 64), as a value: what its output array holds when the region
  is left, as one function of the six arrays it reads, whatever the buffers hold when the region is entered.

  The grid has ten points; point `t` reads rows `10000·t … 10000·t + 9999` of the feature array, of the neighbour-sum
  array and of the scale column, the two weight matrices and the bias whole, and writes the same rows of the output.
  Its body computes, at row `p` of the block and column `j`,
  `(Σₖ x[p,k]·Ws[k,j]) + (Σₖ (a[p,k]·s[p])·Wn[k,j]) + b[j]` (`pay_at`): the two block products into a zero accumulator are
  plain sums, a change of float format is the identity on the extended reals, the scale column is broadcast along the
  row and the bias along the column. Read through the blocks that is block `t` of `Cert.Sage.layer` of the whole arrays
  (`flushed_eq`); the ten blocks cover the output array (`cover`), so the array ends at that function (`final`).
-/
import proofs.«109321_j26998164422767_1_alg».proof.Proof.Gen.KernelIdeal.Frame
import proofs.«109321_j26998164422767_1_alg».proof.Proof.LayerSpec
import proofs.«109321_j26998164422767_1_alg».proof.Proof.KernelDots
import Idealize.ShloMosaic.Lib.Pipeline.Value
import Idealize.ShloMosaic.Lib.ValueLayout

set_option maxRecDepth 16384

noncomputable section

open scoped BigOperators

namespace Cert.Sage.Region1

open Cert.KernelIdeal Cert.KernelIdeal.Gen Idealize.ShloMosaic Idealize.ShloMosaic.TcCoe Idealize.SL.Sem
open Idealize.ShloMosaic.ValueIdx
open Idealize.ShloMosaic.Pipeline (Dat)

/-- The scale column broadcast along the row: a [10000, 1] block broadcast to [10000, 64] reads, at `(p, k)`, the
    column's entry of row `p`. -/
theorem bcast_col (v : (⟨2, ![10000, 1]⟩ : Shape).Idx → EReal) (h : (⟨2, ![10000, 1]⟩ : Shape).Broadcasts ⟨2, ![10000, 64]⟩)
    (p : Fin 10000) (k : Fin 64) : broadcastTo ⟨2, ![10000, 64]⟩ v h (ix2 p k) = v (ix2 p (0 : Fin 1)) := by
  refine broadcastTo_apply v h (ix2 p k) (ix2 p (0 : Fin 1)) fun ax => ?_
  match ax with
  | ⟨0, _⟩ => rfl
  | ⟨1, _⟩ => rfl

/-- The body's stored value at row `p` and column `j` of the block. -/
theorem pay_at (x0 x1 : Vec Ideal S10000x64 .f32) (x2 : Vec Ideal S10000x1 .f32) (x3 x4 : Vec Ideal S64x64 .f32)
    (x5 : Vec Ideal S64 .f32) (p : Fin 10000) (j : Fin 64) :
    k1_pay1 (F := Ideal) x0 x1 x2 x3 x4 x5 (ix2 p j)
      = entry (fun k => x0 (ix2 p k)) (fun k => x1 (ix2 p k)) (x2 (ix2 p (0 : Fin 1)))
          (fun k => x3 (ix2 k j)) (fun k => x4 (ix2 k j)) (x5 (ix1 j)) := by
  unfold k1_pay1 entry
  dsimp only
  rw [addf_apply, addf_apply, KDots.matmul64_at, KDots.matmul64_at, broadcastTo_1b_ab_apply, shapeCast_a_1a_apply]
  simp only [truncf_apply, mulf_apply, shapeCast_self, bcast_col]

/-- The same at an index of the block given whole. -/
theorem pay_at' (x0 x1 : Vec Ideal S10000x64 .f32) (x2 : Vec Ideal S10000x1 .f32) (x3 x4 : Vec Ideal S64x64 .f32)
    (x5 : Vec Ideal S64 .f32) (y : S10000x64.Idx) :
    k1_pay1 (F := Ideal) x0 x1 x2 x3 x4 x5 y
      = entry (fun k => x0 (ix2 ⟨(y 0).val, idx2_lt0 y⟩ k)) (fun k => x1 (ix2 ⟨(y 0).val, idx2_lt0 y⟩ k))
          (x2 (ix2 ⟨(y 0).val, idx2_lt0 y⟩ (0 : Fin 1)))
          (fun k => x3 (ix2 k ⟨(y 1).val, idx2_lt1 y⟩)) (fun k => x4 (ix2 k ⟨(y 1).val, idx2_lt1 y⟩))
          (x5 (ix1 ⟨(y 1).val, idx2_lt1 y⟩)) := by
  have hy : y = ix2 ⟨(y 0).val, idx2_lt0 y⟩ ⟨(y 1).val, idx2_lt1 y⟩ :=
    funext fun a => by match a with | ⟨0, _⟩ => rfl | ⟨1, _⟩ => rfl
  exact (congrArg (k1_pay1 (F := Ideal) x0 x1 x2 x3 x4 x5) hy).trans
    (pay_at x0 x1 x2 x3 x4 x5 ⟨(y 0).val, idx2_lt0 y⟩ ⟨(y 1).val, idx2_lt1 y⟩)

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the three row-blocked inputs and the output move with the point along the
    rows and stay at column block zero; the weights and the bias stay at block zero. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

section
variable (V : (c : Dev nD) → (b : Ref sig .tc) → Buf (Elt Ideal) ((c : Thread nD τ).loc b))

/-- What point `t` writes back is block `t` of the layer function of the arrays as the region finds them. -/
theorem flushed_eq (c : Dev nD) (t : Fin cfg1.N) :
    (dat1 V c).flushed 6 t = ((cfg1.win 6).blk t).view.read (Elt Ideal)
      (layer (d := 64) (V c main_v23) (V c main_v33) (V c main_v11) (V c main_arg5) (V c main_arg6) (V c main_arg7)) := by
  show (cfg1.win 6).cut (grid1.coords t) ((dat1 V c).after 6 t) = _
  rw [after1_6]
  unfold out1_6
  rw [View.canon_unit_zero hz2]
  simp only [View.ld_unit_zero (S := S10000x64) hz2, View.ld_unit_zero (S := S10000x1) hz2,
    View.ld_unit_zero (S := S64x64) hz2, View.ld_unit_zero (S := S64) hz1]
  obtain ⟨a0, a1, b0, b1, c0, c1, d0, d1, e0, e1, f0, g0, g1⟩ := idx_facts t
  funext y
  show k1_pay1 (F := Ideal) (iblk1 V c 0 t) (iblk1 V c 1 t) (iblk1 V c 2 t) (iblk1 V c 3 t) (iblk1 V c 4 t) (iblk1 V c 5 t) y
    = layer (d := 64) (V c main_v23) (V c main_v33) (V c main_v11) (V c main_arg5) (V c main_arg6) (V c main_arg7) (((cfg1.win 6).blk t).view.emb y)
  refine (pay_at' (iblk1 V c 0 t) (iblk1 V c 1 t) (iblk1 V c 2 t) (iblk1 V c 3 t) (iblk1 V c 4 t) (iblk1 V c 5 t) y).trans ?_
  unfold layer
  have hy0 : (y 0).val < 10000 := (y 0).isLt
  have hy1 : (y 1).val < 64 := (y 1).isLt
  refine entry_congr (fun k => ?_) (fun k => ?_) ?_ (fun k => ?_) (fun k => ?_) ?_
  · show V c main_v23 (((cfg1.win 0).blk t).view.emb (ix2 ⟨(y 0).val, idx2_lt0 y⟩ k)) = _
    refine congrArg (V c main_v23) (funext fun a => Fin.ext ?_)
    match a with
    | ⟨0, _⟩ => show win1_0.index t (0 : Fin 2) * 10000 + 1 * (y 0).val = win1_6.index t (0 : Fin 2) * 10000 + 1 * (y 0).val; omega
    | ⟨1, _⟩ => show win1_0.index t (1 : Fin 2) * 64 + 1 * k.val = k.val; omega
  · show V c main_v33 (((cfg1.win 1).blk t).view.emb (ix2 ⟨(y 0).val, idx2_lt0 y⟩ k)) = _
    refine congrArg (V c main_v33) (funext fun a => Fin.ext ?_)
    match a with
    | ⟨0, _⟩ => show win1_1.index t (0 : Fin 2) * 10000 + 1 * (y 0).val = win1_6.index t (0 : Fin 2) * 10000 + 1 * (y 0).val; omega
    | ⟨1, _⟩ => show win1_1.index t (1 : Fin 2) * 64 + 1 * k.val = k.val; omega
  · show V c main_v11 (((cfg1.win 2).blk t).view.emb (ix2 ⟨(y 0).val, idx2_lt0 y⟩ (0 : Fin 1))) = _
    refine congrArg (V c main_v11) (funext fun a => Fin.ext ?_)
    match a with
    | ⟨0, _⟩ => show win1_2.index t (0 : Fin 2) * 10000 + 1 * (y 0).val = win1_6.index t (0 : Fin 2) * 10000 + 1 * (y 0).val; omega
    | ⟨1, _⟩ => show win1_2.index t (1 : Fin 2) * 1 + 1 * 0 = 0; omega
  · show V c main_arg5 (((cfg1.win 3).blk t).view.emb (ix2 k ⟨(y 1).val, idx2_lt1 y⟩)) = _
    refine congrArg (V c main_arg5) (funext fun a => Fin.ext ?_)
    match a with
    | ⟨0, _⟩ => show win1_3.index t (0 : Fin 2) * 64 + 1 * k.val = k.val; omega
    | ⟨1, _⟩ => show win1_3.index t (1 : Fin 2) * 64 + 1 * (y 1).val = win1_6.index t (1 : Fin 2) * 64 + 1 * (y 1).val; omega
  · show V c main_arg6 (((cfg1.win 4).blk t).view.emb (ix2 k ⟨(y 1).val, idx2_lt1 y⟩)) = _
    refine congrArg (V c main_arg6) (funext fun a => Fin.ext ?_)
    match a with
    | ⟨0, _⟩ => show win1_4.index t (0 : Fin 2) * 64 + 1 * k.val = k.val; omega
    | ⟨1, _⟩ => show win1_4.index t (1 : Fin 2) * 64 + 1 * (y 1).val = win1_6.index t (1 : Fin 2) * 64 + 1 * (y 1).val; omega
  · show V c main_arg7 (((cfg1.win 5).blk t).view.emb (ix1 ⟨(y 1).val, idx2_lt1 y⟩)) = _
    refine congrArg (V c main_arg7) (funext fun a => Fin.ext ?_)
    match a with
    | ⟨0, _⟩ => show win1_5.index t (0 : Fin 1) * 64 + 1 * (y 1).val = win1_6.index t (1 : Fin 2) * 64 + 1 * (y 1).val; omega

/-- An index of the output array lies in point `t`'s block iff each coordinate lies in the block's range. -/
theorem mem_blk (t : Fin cfg1.N) (i : S100000x64.Idx) :
    i ∈ ((cfg1.win 6).blk t).view.set ↔ ∀ a : Fin 2, win1_6.index t a * S10000x64.size a ≤ (i a).val ∧ (i a).val < win1_6.index t a * S10000x64.size a + S10000x64.size a := by
  show i ∈ ((View.whole main_v34).slice (win1_6.rect t)).set ↔ _
  rw [View.set_slice_whole, Rect.mem_set_unit]
  exact Iff.rfl

/-- Every index of the output array lies in the block of the point its row falls in. -/
theorem cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : (i 0).val / 10000 < cfg1.N := by rw [show cfg1.N = 10 from N_1]; omega
  obtain ⟨-, -, -, -, -, -, -, -, -, -, -, g0, g1⟩ := idx_facts ⟨(i 0).val / 10000, hN⟩
  have g0' : win1_6.index ⟨(i 0).val / 10000, hN⟩ (0 : Fin 2) = (i 0).val / 10000 := g0
  refine ⟨⟨(i 0).val / 10000, hN⟩, flush1_6 _, ?_⟩
  rw [mem_blk]
  intro a
  match a with
  | ⟨0, _⟩ => show win1_6.index ⟨(i 0).val / 10000, hN⟩ (0 : Fin 2) * 10000 ≤ (i 0).val ∧ (i 0).val < win1_6.index ⟨(i 0).val / 10000, hN⟩ (0 : Fin 2) * 10000 + 10000; omega
  | ⟨1, _⟩ => show win1_6.index ⟨(i 0).val / 10000, hN⟩ (1 : Fin 2) * 64 ≤ (i 1).val ∧ (i 1).val < win1_6.index ⟨(i 0).val / 10000, hN⟩ (1 : Fin 2) * 64 + 64; omega

/-- The output array when the region is left: the layer function of the six arrays the region reads. -/
theorem final (c : Dev nD) :
    (dat1 V c).arrAt 6 cfg1.N
      = layer (d := 64) (V c main_v23) (V c main_v33) (V c main_v11) (V c main_arg5) (V c main_arg6) (V c main_arg7) :=
  (dat1 V c).arrAt_eq_of_cover 6 _ (fun t _ => flushed_eq V c t) cover

end

end Cert.Sage.Region1

end
-- ==== Proof.Region2.lean ====
/-
  Region 2 of the program (the layer with output width 16), as a value: what its output array holds when the region
  is left, as one function of the six arrays it reads, whatever the buffers hold when the region is entered.

  The grid has ten points; point `t` reads rows `10000·t … 10000·t + 9999` of the feature array, of the neighbour-sum
  array and of the scale column, the two weight matrices and the bias whole, and writes the same rows of the output.
  Its body computes, at row `p` of the block and column `j`,
  `(Σₖ x[p,k]·Ws[k,j]) + (Σₖ (a[p,k]·s[p])·Wn[k,j]) + b[j]` (`pay_at`): the two block products into a zero accumulator are
  plain sums, a change of float format is the identity on the extended reals, the scale column is broadcast along the
  row and the bias along the column. Read through the blocks that is block `t` of `Cert.Sage.layer` of the whole arrays
  (`flushed_eq`); the ten blocks cover the output array (`cover`), so the array ends at that function (`final`).
-/
import proofs.«109321_j26998164422767_1_alg».proof.Proof.Gen.KernelIdeal.Frame
import proofs.«109321_j26998164422767_1_alg».proof.Proof.LayerSpec
import proofs.«109321_j26998164422767_1_alg».proof.Proof.KernelDots
import Idealize.ShloMosaic.Lib.Pipeline.Value
import Idealize.ShloMosaic.Lib.ValueLayout

set_option maxRecDepth 16384

noncomputable section

open scoped BigOperators

namespace Cert.Sage.Region2

open Cert.KernelIdeal Cert.KernelIdeal.Gen Idealize.ShloMosaic Idealize.ShloMosaic.TcCoe Idealize.SL.Sem
open Idealize.ShloMosaic.ValueIdx
open Idealize.ShloMosaic.Pipeline (Dat)

/-- The scale column broadcast along the row: a [10000, 1] block broadcast to [10000, 64] reads, at `(p, k)`, the
    column's entry of row `p`. -/
theorem bcast_col (v : (⟨2, ![10000, 1]⟩ : Shape).Idx → EReal) (h : (⟨2, ![10000, 1]⟩ : Shape).Broadcasts ⟨2, ![10000, 64]⟩)
    (p : Fin 10000) (k : Fin 64) : broadcastTo ⟨2, ![10000, 64]⟩ v h (ix2 p k) = v (ix2 p (0 : Fin 1)) := by
  refine broadcastTo_apply v h (ix2 p k) (ix2 p (0 : Fin 1)) fun ax => ?_
  match ax with
  | ⟨0, _⟩ => rfl
  | ⟨1, _⟩ => rfl

/-- The body's stored value at row `p` and column `j` of the block. -/
theorem pay_at (x0 x1 : Vec Ideal S10000x64 .f32) (x2 : Vec Ideal S10000x1 .f32) (x3 x4 : Vec Ideal S64x16 .f32)
    (x5 : Vec Ideal S16 .f32) (p : Fin 10000) (j : Fin 16) :
    k2_pay1 (F := Ideal) x0 x1 x2 x3 x4 x5 (ix2 p j)
      = entry (fun k => x0 (ix2 p k)) (fun k => x1 (ix2 p k)) (x2 (ix2 p (0 : Fin 1)))
          (fun k => x3 (ix2 k j)) (fun k => x4 (ix2 k j)) (x5 (ix1 j)) := by
  unfold k2_pay1 entry
  dsimp only
  rw [addf_apply, addf_apply, KDots.matmul16_at, KDots.matmul16_at, broadcastTo_1b_ab_apply, shapeCast_a_1a_apply]
  simp only [truncf_apply, mulf_apply, shapeCast_self, bcast_col]

/-- The same at an index of the block given whole. -/
theorem pay_at' (x0 x1 : Vec Ideal S10000x64 .f32) (x2 : Vec Ideal S10000x1 .f32) (x3 x4 : Vec Ideal S64x16 .f32)
    (x5 : Vec Ideal S16 .f32) (y : S10000x16.Idx) :
    k2_pay1 (F := Ideal) x0 x1 x2 x3 x4 x5 y
      = entry (fun k => x0 (ix2 ⟨(y 0).val, idx2_lt0 y⟩ k)) (fun k => x1 (ix2 ⟨(y 0).val, idx2_lt0 y⟩ k))
          (x2 (ix2 ⟨(y 0).val, idx2_lt0 y⟩ (0 : Fin 1)))
          (fun k => x3 (ix2 k ⟨(y 1).val, idx2_lt1 y⟩)) (fun k => x4 (ix2 k ⟨(y 1).val, idx2_lt1 y⟩))
          (x5 (ix1 ⟨(y 1).val, idx2_lt1 y⟩)) := by
  have hy : y = ix2 ⟨(y 0).val, idx2_lt0 y⟩ ⟨(y 1).val, idx2_lt1 y⟩ :=
    funext fun a => by match a with | ⟨0, _⟩ => rfl | ⟨1, _⟩ => rfl
  exact (congrArg (k2_pay1 (F := Ideal) x0 x1 x2 x3 x4 x5) hy).trans
    (pay_at x0 x1 x2 x3 x4 x5 ⟨(y 0).val, idx2_lt0 y⟩ ⟨(y 1).val, idx2_lt1 y⟩)

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the three row-blocked inputs and the output move with the point along the
    rows and stay at column block zero; the weights and the bias stay at block zero. -/
theorem idx_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = win2_6.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

section
variable (V : (c : Dev nD) → (b : Ref sig .tc) → Buf (Elt Ideal) ((c : Thread nD τ).loc b))

/-- What point `t` writes back is block `t` of the layer function of the arrays as the region finds them. -/
theorem flushed_eq (c : Dev nD) (t : Fin cfg2.N) :
    (dat2 V c).flushed 6 t = ((cfg2.win 6).blk t).view.read (Elt Ideal)
      (layer (d := 16) (V c main_v35) (V c main_v45) (V c main_v11) (V c main_arg8) (V c main_arg9) (V c main_arg10)) := by
  show (cfg2.win 6).cut (grid2.coords t) ((dat2 V c).after 6 t) = _
  rw [after2_6]
  unfold out2_6
  rw [View.canon_unit_zero hz2]
  simp only [View.ld_unit_zero (S := S10000x64) hz2, View.ld_unit_zero (S := S10000x1) hz2,
    View.ld_unit_zero (S := S64x16) hz2, View.ld_unit_zero (S := S16) hz1]
  obtain ⟨a0, a1, b0, b1, c0, c1, d0, d1, e0, e1, f0, g0, g1⟩ := idx_facts t
  funext y
  show k2_pay1 (F := Ideal) (iblk2 V c 0 t) (iblk2 V c 1 t) (iblk2 V c 2 t) (iblk2 V c 3 t) (iblk2 V c 4 t) (iblk2 V c 5 t) y
    = layer (d := 16) (V c main_v35) (V c main_v45) (V c main_v11) (V c main_arg8) (V c main_arg9) (V c main_arg10) (((cfg2.win 6).blk t).view.emb y)
  refine (pay_at' (iblk2 V c 0 t) (iblk2 V c 1 t) (iblk2 V c 2 t) (iblk2 V c 3 t) (iblk2 V c 4 t) (iblk2 V c 5 t) y).trans ?_
  unfold layer
  have hy0 : (y 0).val < 10000 := (y 0).isLt
  have hy1 : (y 1).val < 16 := (y 1).isLt
  refine entry_congr (fun k => ?_) (fun k => ?_) ?_ (fun k => ?_) (fun k => ?_) ?_
  · show V c main_v35 (((cfg2.win 0).blk t).view.emb (ix2 ⟨(y 0).val, idx2_lt0 y⟩ k)) = _
    refine congrArg (V c main_v35) (funext fun a => Fin.ext ?_)
    match a with
    | ⟨0, _⟩ => show win2_0.index t (0 : Fin 2) * 10000 + 1 * (y 0).val = win2_6.index t (0 : Fin 2) * 10000 + 1 * (y 0).val; omega
    | ⟨1, _⟩ => show win2_0.index t (1 : Fin 2) * 64 + 1 * k.val = k.val; omega
  · show V c main_v45 (((cfg2.win 1).blk t).view.emb (ix2 ⟨(y 0).val, idx2_lt0 y⟩ k)) = _
    refine congrArg (V c main_v45) (funext fun a => Fin.ext ?_)
    match a with
    | ⟨0, _⟩ => show win2_1.index t (0 : Fin 2) * 10000 + 1 * (y 0).val = win2_6.index t (0 : Fin 2) * 10000 + 1 * (y 0).val; omega
    | ⟨1, _⟩ => show win2_1.index t (1 : Fin 2) * 64 + 1 * k.val = k.val; omega
  · show V c main_v11 (((cfg2.win 2).blk t).view.emb (ix2 ⟨(y 0).val, idx2_lt0 y⟩ (0 : Fin 1))) = _
    refine congrArg (V c main_v11) (funext fun a => Fin.ext ?_)
    match a with
    | ⟨0, _⟩ => show win2_2.index t (0 : Fin 2) * 10000 + 1 * (y 0).val = win2_6.index t (0 : Fin 2) * 10000 + 1 * (y 0).val; omega
    | ⟨1, _⟩ => show win2_2.index t (1 : Fin 2) * 1 + 1 * 0 = 0; omega
  · show V c main_arg8 (((cfg2.win 3).blk t).view.emb (ix2 k ⟨(y 1).val, idx2_lt1 y⟩)) = _
    refine congrArg (V c main_arg8) (funext fun a => Fin.ext ?_)
    match a with
    | ⟨0, _⟩ => show win2_3.index t (0 : Fin 2) * 64 + 1 * k.val = k.val; omega
    | ⟨1, _⟩ => show win2_3.index t (1 : Fin 2) * 16 + 1 * (y 1).val = win2_6.index t (1 : Fin 2) * 16 + 1 * (y 1).val; omega
  · show V c main_arg9 (((cfg2.win 4).blk t).view.emb (ix2 k ⟨(y 1).val, idx2_lt1 y⟩)) = _
    refine congrArg (V c main_arg9) (funext fun a => Fin.ext ?_)
    match a with
    | ⟨0, _⟩ => show win2_4.index t (0 : Fin 2) * 64 + 1 * k.val = k.val; omega
    | ⟨1, _⟩ => show win2_4.index t (1 : Fin 2) * 16 + 1 * (y 1).val = win2_6.index t (1 : Fin 2) * 16 + 1 * (y 1).val; omega
  · show V c main_arg10 (((cfg2.win 5).blk t).view.emb (ix1 ⟨(y 1).val, idx2_lt1 y⟩)) = _
    refine congrArg (V c main_arg10) (funext fun a => Fin.ext ?_)
    match a with
    | ⟨0, _⟩ => show win2_5.index t (0 : Fin 1) * 16 + 1 * (y 1).val = win2_6.index t (1 : Fin 2) * 16 + 1 * (y 1).val; omega

/-- An index of the output array lies in point `t`'s block iff each coordinate lies in the block's range. -/
theorem mem_blk (t : Fin cfg2.N) (i : S100000x16.Idx) :
    i ∈ ((cfg2.win 6).blk t).view.set ↔ ∀ a : Fin 2, win2_6.index t a * S10000x16.size a ≤ (i a).val ∧ (i a).val < win2_6.index t a * S10000x16.size a + S10000x16.size a := by
  show i ∈ ((View.whole main_v46).slice (win2_6.rect t)).set ↔ _
  rw [View.set_slice_whole, Rect.mem_set_unit]
  exact Iff.rfl

/-- Every index of the output array lies in the block of the point its row falls in. -/
theorem cover (i : S100000x16.Idx) :
    ∃ t : Fin cfg2.N, (cfg2.win 6).flush t = true ∧ i ∈ ((cfg2.win 6).blk t).view.set := by
  have hi0 : (i 0).val < 100000 := (i 0).isLt
  have hi1 : (i 1).val < 16 := (i 1).isLt
  have hN : (i 0).val / 10000 < cfg2.N := by rw [show cfg2.N = 10 from N_2]; omega
  obtain ⟨-, -, -, -, -, -, -, -, -, -, -, g0, g1⟩ := idx_facts ⟨(i 0).val / 10000, hN⟩
  have g0' : win2_6.index ⟨(i 0).val / 10000, hN⟩ (0 : Fin 2) = (i 0).val / 10000 := g0
  refine ⟨⟨(i 0).val / 10000, hN⟩, flush2_6 _, ?_⟩
  rw [mem_blk]
  intro a
  match a with
  | ⟨0, _⟩ => show win2_6.index ⟨(i 0).val / 10000, hN⟩ (0 : Fin 2) * 10000 ≤ (i 0).val ∧ (i 0).val < win2_6.index ⟨(i 0).val / 10000, hN⟩ (0 : Fin 2) * 10000 + 10000; omega
  | ⟨1, _⟩ => show win2_6.index ⟨(i 0).val / 10000, hN⟩ (1 : Fin 2) * 16 ≤ (i 1).val ∧ (i 1).val < win2_6.index ⟨(i 0).val / 10000, hN⟩ (1 : Fin 2) * 16 + 16; omega

/-- The output array when the region is left: the layer function of the six arrays the region reads. -/
theorem final (c : Dev nD) :
    (dat2 V c).arrAt 6 cfg2.N
      = layer (d := 16) (V c main_v35) (V c main_v45) (V c main_v11) (V c main_arg8) (V c main_arg9) (V c main_arg10) :=
  (dat2 V c).arrAt_eq_of_cover 6 _ (fun t _ => flushed_eq V c t) cover

end

end Cert.Sage.Region2

end
-- ==== Proof.HostStages.lean ====
/-
  The program's buffers at each segment boundary, as terms of the launch memory, and so its three results.

  The run's boundaries are a fold: host stretches rewrite the buffers they compute and leave the rest, a kernel region
  rewrites its output array and leaves the rest. Walking the fold forward:
  before the first region the edge rows `src`, `dst`, the scale column `invOf dst` and the neighbour sums of the input
  features are in place, the arguments as launched; the first region leaves `out0` (Proof/Region0.lean); the second
  stretch computes `reluOf out0` and its neighbour sums with the same `src`, `dst`, the second region leaves `out1`;
  the third stretch and region do the same one layer further and leave `out2`. No later stretch or region writes an
  earlier result, so at the last boundary the three result arrays hold `out2`, `out0`, `out1`.

  The three stretches that come from inlined functions (the clip, and the two maxima with zero) are crossed once each
  at entry contents left opaque, and the facts about the concrete boundaries are chained from those by rewriting.
-/
import proofs.«109321_j26998164422767_1_alg».proof.Proof.Gen.KernelIdeal.Frame
import proofs.«109321_j26998164422767_1_alg».proof.Proof.HostFns
import proofs.«109321_j26998164422767_1_alg».proof.Proof.Region0
import proofs.«109321_j26998164422767_1_alg».proof.Proof.Region1
import proofs.«109321_j26998164422767_1_alg».proof.Proof.Region2

set_option maxRecDepth 16384

noncomputable section

namespace Cert.Sage.Stages

open Cert.KernelIdeal Cert.KernelIdeal.Gen Idealize.ShloMosaic Idealize.ShloMosaic.TcCoe Idealize.SL.Sem
open Idealize.ShloMosaic.StableHlo
open Cert.Sage.Fns

/-- A buffer after the first plain stretch, from the launch memory. -/
macro "stage1" : tactic => `(tactic| (
  show StableHlo.after hostOps0 (W0 _ _ _) _ = _
  simp only [hostOps0]
  after_results_simp <;> rfl))
/-- A buffer after the clip stretch, in terms of the buffers before it. -/
macro "stage2" : tactic => `(tactic| (
  show StableHlo.after hostOps0_1 (W1 _ _ _) _ = _
  simp only [hostOps0_1]
  after_results_simp <;> rfl))
/-- A buffer at the first region's entry, in terms of the buffers after the clip stretch. -/
macro "stage3" : tactic => `(tactic| (
  show StableHlo.after hostOps0_2 (W2 _ _ _) _ = _
  simp only [hostOps0_2]
  after_results_simp <;> rfl))
/-- A buffer after a maximum-with-zero stretch, in terms of the buffers at the region's exit before it. -/
macro "stage5" : tactic => `(tactic| (
  show StableHlo.after hostOps1 (W4 _ _ _) _ = _
  simp only [hostOps1]
  after_results_simp <;> rfl))
macro "stage6" : tactic => `(tactic| (
  show StableHlo.after hostOps1_1 (W5 _ _ _) _ = _
  simp only [hostOps1_1]
  after_results_simp <;> rfl))
macro "stage8" : tactic => `(tactic| (
  show StableHlo.after hostOps2 (W7 _ _ _) _ = _
  simp only [hostOps2]
  after_results_simp <;> rfl))
macro "stage9" : tactic => `(tactic| (
  show StableHlo.after hostOps2_1 (W8 _ _ _) _ = _
  simp only [hostOps2_1]
  after_results_simp <;> rfl))

/-! ## The three inlined-function stretches at opaque entry contents -/

section Stretches
variable (W : Valuation τ sig (Elt Ideal))

/-- The clip stretch leaves, in its result buffer, the maximum of the broadcast bound and the count it was handed. -/
theorem clip_stretch : StableHlo.after hostOps0_1 W (Proc.devRef .tc main_v8)
    = (maximumf (F := Ideal) (φ := .f32)
        (broadcastInDim S100000 ![] bcast_S_S100000 (id (W (Proc.devRef .tc main_cst_1) : (⟨S_, .f32⟩ : BufTy).Contents (Elt Ideal))))
        (W (Proc.devRef .tc main_v7) : (⟨S100000, .f32⟩ : BufTy).Contents (Elt Ideal)) : (⟨S100000, .f32⟩ : BufTy).Contents (Elt Ideal)) := by
  simp only [hostOps0_1]
  after_results_simp <;> rfl
/-- The first maximum-with-zero stretch. -/
theorem relu1_stretch : StableHlo.after hostOps1 W (Proc.devRef .tc main_v23) = reluOf (F := Ideal) (W (Proc.devRef .tc main_v22)) := by
  simp only [hostOps1]
  after_results_simp <;> rfl
/-- The second maximum-with-zero stretch. -/
theorem relu2_stretch : StableHlo.after hostOps2 W (Proc.devRef .tc main_v35) = reluOf (F := Ideal) (W (Proc.devRef .tc main_v34)) := by
  simp only [hostOps2]
  after_results_simp <;> rfl

end Stretches

variable (m : (ℓ : Loc nD τ sig) → Buf (Elt Ideal) ℓ) (ρ : Dev nD → PrngReg) (c : Dev nD)

/-! ## Before the first region -/

theorem W1_src : W1 m ρ c (Proc.devRef .tc main_v1) = (srcOf (m ((c : Thread nD τ).loc main_arg1))) := by stage1
theorem W1_dst : W1 m ρ c (Proc.devRef .tc main_v3) = (dstOf (m ((c : Thread nD τ).loc main_arg1))) := by stage1
theorem W1_deg : W1 m ρ c (Proc.devRef .tc main_v7) = degOf (dstOf (m ((c : Thread nD τ).loc main_arg1))) := by stage1
theorem W1_one : W1 m ρ c (Proc.devRef .tc main_cst_1) = constant (F := Ideal) S_ .f32 0x3F800000#32 := by stage1
theorem W1_arg0 : W1 m ρ c (Proc.devRef .tc main_arg0) = (m ((c : Thread nD τ).loc main_arg0)) := by stage1
theorem W1_arg2 : W1 m ρ c (Proc.devRef .tc main_arg2) = (m ((c : Thread nD τ).loc main_arg2)) := by stage1
theorem W1_arg3 : W1 m ρ c (Proc.devRef .tc main_arg3) = (m ((c : Thread nD τ).loc main_arg3)) := by stage1
theorem W1_arg4 : W1 m ρ c (Proc.devRef .tc main_arg4) = (m ((c : Thread nD τ).loc main_arg4)) := by stage1
theorem W1_arg5 : W1 m ρ c (Proc.devRef .tc main_arg5) = (m ((c : Thread nD τ).loc main_arg5)) := by stage1
theorem W1_arg6 : W1 m ρ c (Proc.devRef .tc main_arg6) = (m ((c : Thread nD τ).loc main_arg6)) := by stage1
theorem W1_arg7 : W1 m ρ c (Proc.devRef .tc main_arg7) = (m ((c : Thread nD τ).loc main_arg7)) := by stage1
theorem W1_arg8 : W1 m ρ c (Proc.devRef .tc main_arg8) = (m ((c : Thread nD τ).loc main_arg8)) := by stage1
theorem W1_arg9 : W1 m ρ c (Proc.devRef .tc main_arg9) = (m ((c : Thread nD τ).loc main_arg9)) := by stage1
theorem W1_arg10 : W1 m ρ c (Proc.devRef .tc main_arg10) = (m ((c : Thread nD τ).loc main_arg10)) := by stage1

theorem W2_clip : W2 m ρ c (Proc.devRef .tc main_v8) = clipOf (dstOf (m ((c : Thread nD τ).loc main_arg1))) := by
  refine (clip_stretch (W1 m ρ c)).trans ?_
  rw [W1_one, W1_deg]
  rfl
theorem W2_src : W2 m ρ c (Proc.devRef .tc main_v1) = (srcOf (m ((c : Thread nD τ).loc main_arg1))) := by
  have h : W2 m ρ c (Proc.devRef .tc main_v1) = W1 m ρ c (Proc.devRef .tc main_v1) := by stage2
  rw [h, W1_src]
theorem W2_dst : W2 m ρ c (Proc.devRef .tc main_v3) = (dstOf (m ((c : Thread nD τ).loc main_arg1))) := by
  have h : W2 m ρ c (Proc.devRef .tc main_v3) = W1 m ρ c (Proc.devRef .tc main_v3) := by stage2
  rw [h, W1_dst]
theorem W2_arg0 : W2 m ρ c (Proc.devRef .tc main_arg0) = (m ((c : Thread nD τ).loc main_arg0)) := by
  have h : W2 m ρ c (Proc.devRef .tc main_arg0) = W1 m ρ c (Proc.devRef .tc main_arg0) := by stage2
  rw [h, W1_arg0]
theorem W2_arg2 : W2 m ρ c (Proc.devRef .tc main_arg2) = (m ((c : Thread nD τ).loc main_arg2)) := by
  have h : W2 m ρ c (Proc.devRef .tc main_arg2) = W1 m ρ c (Proc.devRef .tc main_arg2) := by stage2
  rw [h, W1_arg2]
theorem W2_arg3 : W2 m ρ c (Proc.devRef .tc main_arg3) = (m ((c : Thread nD τ).loc main_arg3)) := by
  have h : W2 m ρ c (Proc.devRef .tc main_arg3) = W1 m ρ c (Proc.devRef .tc main_arg3) := by stage2
  rw [h, W1_arg3]
theorem W2_arg4 : W2 m ρ c (Proc.devRef .tc main_arg4) = (m ((c : Thread nD τ).loc main_arg4)) := by
  have h : W2 m ρ c (Proc.devRef .tc main_arg4) = W1 m ρ c (Proc.devRef .tc main_arg4) := by stage2
  rw [h, W1_arg4]
theorem W2_arg5 : W2 m ρ c (Proc.devRef .tc main_arg5) = (m ((c : Thread nD τ).loc main_arg5)) := by
  have h : W2 m ρ c (Proc.devRef .tc main_arg5) = W1 m ρ c (Proc.devRef .tc main_arg5) := by stage2
  rw [h, W1_arg5]
theorem W2_arg6 : W2 m ρ c (Proc.devRef .tc main_arg6) = (m ((c : Thread nD τ).loc main_arg6)) := by
  have h : W2 m ρ c (Proc.devRef .tc main_arg6) = W1 m ρ c (Proc.devRef .tc main_arg6) := by stage2
  rw [h, W1_arg6]
theorem W2_arg7 : W2 m ρ c (Proc.devRef .tc main_arg7) = (m ((c : Thread nD τ).loc main_arg7)) := by
  have h : W2 m ρ c (Proc.devRef .tc main_arg7) = W1 m ρ c (Proc.devRef .tc main_arg7) := by stage2
  rw [h, W1_arg7]
theorem W2_arg8 : W2 m ρ c (Proc.devRef .tc main_arg8) = (m ((c : Thread nD τ).loc main_arg8)) := by
  have h : W2 m ρ c (Proc.devRef .tc main_arg8) = W1 m ρ c (Proc.devRef .tc main_arg8) := by stage2
  rw [h, W1_arg8]
theorem W2_arg9 : W2 m ρ c (Proc.devRef .tc main_arg9) = (m ((c : Thread nD τ).loc main_arg9)) := by
  have h : W2 m ρ c (Proc.devRef .tc main_arg9) = W1 m ρ c (Proc.devRef .tc main_arg9) := by stage2
  rw [h, W1_arg9]
theorem W2_arg10 : W2 m ρ c (Proc.devRef .tc main_arg10) = (m ((c : Thread nD τ).loc main_arg10)) := by
  have h : W2 m ρ c (Proc.devRef .tc main_arg10) = W1 m ρ c (Proc.devRef .tc main_arg10) := by stage2
  rw [h, W1_arg10]

theorem V3_inv : V3 m ρ c main_v11 = invOf (dstOf (m ((c : Thread nD τ).loc main_arg1))) := by
  have h : V3 m ρ c main_v11 = shapeCast _ (Host.divf (F := Ideal) (broadcastInDim S100000 ![] bcast_S_S100000 (constant (F := Ideal) S_ .f32 0x3F800000#32)) (W2 m ρ c (Proc.devRef .tc main_v8))) shapeCasts_S100000_S100000x1 := by stage3
  rw [h, W2_clip]
  rfl
theorem V3_agg : V3 m ρ c main_v21 = aggOf (m ((c : Thread nD τ).loc main_arg0)) (srcOf (m ((c : Thread nD τ).loc main_arg1))) (dstOf (m ((c : Thread nD τ).loc main_arg1))) := by
  have h : V3 m ρ c main_v21 = aggOf (W2 m ρ c (Proc.devRef .tc main_arg0)) (W2 m ρ c (Proc.devRef .tc main_v1)) (W2 m ρ c (Proc.devRef .tc main_v3)) := by stage3
  rw [h, W2_arg0, W2_src, W2_dst]
theorem V3_arg0 : V3 m ρ c main_arg0 = (m ((c : Thread nD τ).loc main_arg0)) := by
  have h : V3 m ρ c main_arg0 = W2 m ρ c (Proc.devRef .tc main_arg0) := by stage3
  rw [h, W2_arg0]
theorem V3_arg2 : V3 m ρ c main_arg2 = (m ((c : Thread nD τ).loc main_arg2)) := by
  have h : V3 m ρ c main_arg2 = W2 m ρ c (Proc.devRef .tc main_arg2) := by stage3
  rw [h, W2_arg2]
theorem V3_arg3 : V3 m ρ c main_arg3 = (m ((c : Thread nD τ).loc main_arg3)) := by
  have h : V3 m ρ c main_arg3 = W2 m ρ c (Proc.devRef .tc main_arg3) := by stage3
  rw [h, W2_arg3]
theorem V3_arg4 : V3 m ρ c main_arg4 = (m ((c : Thread nD τ).loc main_arg4)) := by
  have h : V3 m ρ c main_arg4 = W2 m ρ c (Proc.devRef .tc main_arg4) := by stage3
  rw [h, W2_arg4]
theorem W3_src : W3 m ρ c (Proc.devRef .tc main_v1) = (srcOf (m ((c : Thread nD τ).loc main_arg1))) := by
  have h : W3 m ρ c (Proc.devRef .tc main_v1) = W2 m ρ c (Proc.devRef .tc main_v1) := by stage3
  rw [h, W2_src]
theorem W3_dst : W3 m ρ c (Proc.devRef .tc main_v3) = (dstOf (m ((c : Thread nD τ).loc main_arg1))) := by
  have h : W3 m ρ c (Proc.devRef .tc main_v3) = W2 m ρ c (Proc.devRef .tc main_v3) := by stage3
  rw [h, W2_dst]
theorem W3_arg5 : W3 m ρ c (Proc.devRef .tc main_arg5) = (m ((c : Thread nD τ).loc main_arg5)) := by
  have h : W3 m ρ c (Proc.devRef .tc main_arg5) = W2 m ρ c (Proc.devRef .tc main_arg5) := by stage3
  rw [h, W2_arg5]
theorem W3_arg6 : W3 m ρ c (Proc.devRef .tc main_arg6) = (m ((c : Thread nD τ).loc main_arg6)) := by
  have h : W3 m ρ c (Proc.devRef .tc main_arg6) = W2 m ρ c (Proc.devRef .tc main_arg6) := by stage3
  rw [h, W2_arg6]
theorem W3_arg7 : W3 m ρ c (Proc.devRef .tc main_arg7) = (m ((c : Thread nD τ).loc main_arg7)) := by
  have h : W3 m ρ c (Proc.devRef .tc main_arg7) = W2 m ρ c (Proc.devRef .tc main_arg7) := by stage3
  rw [h, W2_arg7]
theorem W3_arg8 : W3 m ρ c (Proc.devRef .tc main_arg8) = (m ((c : Thread nD τ).loc main_arg8)) := by
  have h : W3 m ρ c (Proc.devRef .tc main_arg8) = W2 m ρ c (Proc.devRef .tc main_arg8) := by stage3
  rw [h, W2_arg8]
theorem W3_arg9 : W3 m ρ c (Proc.devRef .tc main_arg9) = (m ((c : Thread nD τ).loc main_arg9)) := by
  have h : W3 m ρ c (Proc.devRef .tc main_arg9) = W2 m ρ c (Proc.devRef .tc main_arg9) := by stage3
  rw [h, W2_arg9]
theorem W3_arg10 : W3 m ρ c (Proc.devRef .tc main_arg10) = (m ((c : Thread nD τ).loc main_arg10)) := by
  have h : W3 m ρ c (Proc.devRef .tc main_arg10) = W2 m ρ c (Proc.devRef .tc main_arg10) := by stage3
  rw [h, W2_arg10]

/-! ## After the first region -/

theorem W4_out : W4 m ρ c (Proc.devRef .tc main_v22) = (out0 (m ((c : Thread nD τ).loc main_arg0)) (m ((c : Thread nD τ).loc main_arg1)) (m ((c : Thread nD τ).loc main_arg2)) (m ((c : Thread nD τ).loc main_arg3)) (m ((c : Thread nD τ).loc main_arg4))) := by
  refine (W4_arr m ρ c 6).trans ?_
  rw [Region0.final (V3 m ρ) c, V3_arg0, V3_agg, V3_inv, V3_arg2, V3_arg3, V3_arg4]
  rfl
theorem W4_src : W4 m ρ c (Proc.devRef .tc main_v1) = (srcOf (m ((c : Thread nD τ).loc main_arg1))) := (W4_of_ne m ρ c main_v1 (by decide)).trans (W3_src m ρ c)
theorem W4_dst : W4 m ρ c (Proc.devRef .tc main_v3) = (dstOf (m ((c : Thread nD τ).loc main_arg1))) := (W4_of_ne m ρ c main_v3 (by decide)).trans (W3_dst m ρ c)
theorem W4_inv : W4 m ρ c (Proc.devRef .tc main_v11) = invOf (dstOf (m ((c : Thread nD τ).loc main_arg1))) :=
  (W4_arr m ρ c 2).trans ((((dat0 (V3 m ρ) c).arrAt_in 2 rfl _).trans (A_eq0 (V3 m ρ) c 2)).trans (V3_inv m ρ c))
theorem W4_arg5 : W4 m ρ c (Proc.devRef .tc main_arg5) = (m ((c : Thread nD τ).loc main_arg5)) := (W4_of_ne m ρ c main_arg5 (by decide)).trans (W3_arg5 m ρ c)
theorem W4_arg6 : W4 m ρ c (Proc.devRef .tc main_arg6) = (m ((c : Thread nD τ).loc main_arg6)) := (W4_of_ne m ρ c main_arg6 (by decide)).trans (W3_arg6 m ρ c)
theorem W4_arg7 : W4 m ρ c (Proc.devRef .tc main_arg7) = (m ((c : Thread nD τ).loc main_arg7)) := (W4_of_ne m ρ c main_arg7 (by decide)).trans (W3_arg7 m ρ c)
theorem W4_arg8 : W4 m ρ c (Proc.devRef .tc main_arg8) = (m ((c : Thread nD τ).loc main_arg8)) := (W4_of_ne m ρ c main_arg8 (by decide)).trans (W3_arg8 m ρ c)
theorem W4_arg9 : W4 m ρ c (Proc.devRef .tc main_arg9) = (m ((c : Thread nD τ).loc main_arg9)) := (W4_of_ne m ρ c main_arg9 (by decide)).trans (W3_arg9 m ρ c)
theorem W4_arg10 : W4 m ρ c (Proc.devRef .tc main_arg10) = (m ((c : Thread nD τ).loc main_arg10)) := (W4_of_ne m ρ c main_arg10 (by decide)).trans (W3_arg10 m ρ c)

/-! ## Before the second region -/

theorem W5_h : W5 m ρ c (Proc.devRef .tc main_v23) = reluOf (out0 (m ((c : Thread nD τ).loc main_arg0)) (m ((c : Thread nD τ).loc main_arg1)) (m ((c : Thread nD τ).loc main_arg2)) (m ((c : Thread nD τ).loc main_arg3)) (m ((c : Thread nD τ).loc main_arg4))) := by
  refine (relu1_stretch (W4 m ρ c)).trans ?_
  rw [W4_out]
theorem W5_src : W5 m ρ c (Proc.devRef .tc main_v1) = (srcOf (m ((c : Thread nD τ).loc main_arg1))) := by
  have h : W5 m ρ c (Proc.devRef .tc main_v1) = W4 m ρ c (Proc.devRef .tc main_v1) := by stage5
  rw [h, W4_src]
theorem W5_dst : W5 m ρ c (Proc.devRef .tc main_v3) = (dstOf (m ((c : Thread nD τ).loc main_arg1))) := by
  have h : W5 m ρ c (Proc.devRef .tc main_v3) = W4 m ρ c (Proc.devRef .tc main_v3) := by stage5
  rw [h, W4_dst]
theorem W5_inv : W5 m ρ c (Proc.devRef .tc main_v11) = invOf (dstOf (m ((c : Thread nD τ).loc main_arg1))) := by
  have h : W5 m ρ c (Proc.devRef .tc main_v11) = W4 m ρ c (Proc.devRef .tc main_v11) := by stage5
  rw [h, W4_inv]
theorem W5_out : W5 m ρ c (Proc.devRef .tc main_v22) = (out0 (m ((c : Thread nD τ).loc main_arg0)) (m ((c : Thread nD τ).loc main_arg1)) (m ((c : Thread nD τ).loc main_arg2)) (m ((c : Thread nD τ).loc main_arg3)) (m ((c : Thread nD τ).loc main_arg4))) := by
  have h : W5 m ρ c (Proc.devRef .tc main_v22) = W4 m ρ c (Proc.devRef .tc main_v22) := by stage5
  rw [h, W4_out]
theorem W5_arg5 : W5 m ρ c (Proc.devRef .tc main_arg5) = (m ((c : Thread nD τ).loc main_arg5)) := by
  have h : W5 m ρ c (Proc.devRef .tc main_arg5) = W4 m ρ c (Proc.devRef .tc main_arg5) := by stage5
  rw [h, W4_arg5]
theorem W5_arg6 : W5 m ρ c (Proc.devRef .tc main_arg6) = (m ((c : Thread nD τ).loc main_arg6)) := by
  have h : W5 m ρ c (Proc.devRef .tc main_arg6) = W4 m ρ c (Proc.devRef .tc main_arg6) := by stage5
  rw [h, W4_arg6]
theorem W5_arg7 : W5 m ρ c (Proc.devRef .tc main_arg7) = (m ((c : Thread nD τ).loc main_arg7)) := by
  have h : W5 m ρ c (Proc.devRef .tc main_arg7) = W4 m ρ c (Proc.devRef .tc main_arg7) := by stage5
  rw [h, W4_arg7]
theorem W5_arg8 : W5 m ρ c (Proc.devRef .tc main_arg8) = (m ((c : Thread nD τ).loc main_arg8)) := by
  have h : W5 m ρ c (Proc.devRef .tc main_arg8) = W4 m ρ c (Proc.devRef .tc main_arg8) := by stage5
  rw [h, W4_arg8]
theorem W5_arg9 : W5 m ρ c (Proc.devRef .tc main_arg9) = (m ((c : Thread nD τ).loc main_arg9)) := by
  have h : W5 m ρ c (Proc.devRef .tc main_arg9) = W4 m ρ c (Proc.devRef .tc main_arg9) := by stage5
  rw [h, W4_arg9]
theorem W5_arg10 : W5 m ρ c (Proc.devRef .tc main_arg10) = (m ((c : Thread nD τ).loc main_arg10)) := by
  have h : W5 m ρ c (Proc.devRef .tc main_arg10) = W4 m ρ c (Proc.devRef .tc main_arg10) := by stage5
  rw [h, W4_arg10]

theorem V6_h : V6 m ρ c main_v23 = reluOf (out0 (m ((c : Thread nD τ).loc main_arg0)) (m ((c : Thread nD τ).loc main_arg1)) (m ((c : Thread nD τ).loc main_arg2)) (m ((c : Thread nD τ).loc main_arg3)) (m ((c : Thread nD τ).loc main_arg4))) := by
  have h : V6 m ρ c main_v23 = W5 m ρ c (Proc.devRef .tc main_v23) := by stage6
  rw [h, W5_h]
theorem V6_agg : V6 m ρ c main_v33 = aggOf (reluOf (out0 (m ((c : Thread nD τ).loc main_arg0)) (m ((c : Thread nD τ).loc main_arg1)) (m ((c : Thread nD τ).loc main_arg2)) (m ((c : Thread nD τ).loc main_arg3)) (m ((c : Thread nD τ).loc main_arg4)))) (srcOf (m ((c : Thread nD τ).loc main_arg1))) (dstOf (m ((c : Thread nD τ).loc main_arg1))) := by
  have h : V6 m ρ c main_v33 = aggOf (W5 m ρ c (Proc.devRef .tc main_v23)) (W5 m ρ c (Proc.devRef .tc main_v1)) (W5 m ρ c (Proc.devRef .tc main_v3)) := by stage6
  rw [h, W5_h, W5_src, W5_dst]
theorem V6_inv : V6 m ρ c main_v11 = invOf (dstOf (m ((c : Thread nD τ).loc main_arg1))) := by
  have h : V6 m ρ c main_v11 = W5 m ρ c (Proc.devRef .tc main_v11) := by stage6
  rw [h, W5_inv]
theorem V6_arg5 : V6 m ρ c main_arg5 = (m ((c : Thread nD τ).loc main_arg5)) := by
  have h : V6 m ρ c main_arg5 = W5 m ρ c (Proc.devRef .tc main_arg5) := by stage6
  rw [h, W5_arg5]
theorem V6_arg6 : V6 m ρ c main_arg6 = (m ((c : Thread nD τ).loc main_arg6)) := by
  have h : V6 m ρ c main_arg6 = W5 m ρ c (Proc.devRef .tc main_arg6) := by stage6
  rw [h, W5_arg6]
theorem V6_arg7 : V6 m ρ c main_arg7 = (m ((c : Thread nD τ).loc main_arg7)) := by
  have h : V6 m ρ c main_arg7 = W5 m ρ c (Proc.devRef .tc main_arg7) := by stage6
  rw [h, W5_arg7]
theorem W6_src : W6 m ρ c (Proc.devRef .tc main_v1) = (srcOf (m ((c : Thread nD τ).loc main_arg1))) := by
  have h : W6 m ρ c (Proc.devRef .tc main_v1) = W5 m ρ c (Proc.devRef .tc main_v1) := by stage6
  rw [h, W5_src]
theorem W6_dst : W6 m ρ c (Proc.devRef .tc main_v3) = (dstOf (m ((c : Thread nD τ).loc main_arg1))) := by
  have h : W6 m ρ c (Proc.devRef .tc main_v3) = W5 m ρ c (Proc.devRef .tc main_v3) := by stage6
  rw [h, W5_dst]
theorem W6_arg8 : W6 m ρ c (Proc.devRef .tc main_arg8) = (m ((c : Thread nD τ).loc main_arg8)) := by
  have h : W6 m ρ c (Proc.devRef .tc main_arg8) = W5 m ρ c (Proc.devRef .tc main_arg8) := by stage6
  rw [h, W5_arg8]
theorem W6_arg9 : W6 m ρ c (Proc.devRef .tc main_arg9) = (m ((c : Thread nD τ).loc main_arg9)) := by
  have h : W6 m ρ c (Proc.devRef .tc main_arg9) = W5 m ρ c (Proc.devRef .tc main_arg9) := by stage6
  rw [h, W5_arg9]
theorem W6_arg10 : W6 m ρ c (Proc.devRef .tc main_arg10) = (m ((c : Thread nD τ).loc main_arg10)) := by
  have h : W6 m ρ c (Proc.devRef .tc main_arg10) = W5 m ρ c (Proc.devRef .tc main_arg10) := by stage6
  rw [h, W5_arg10]
theorem W6_out : W6 m ρ c (Proc.devRef .tc main_v22) = (out0 (m ((c : Thread nD τ).loc main_arg0)) (m ((c : Thread nD τ).loc main_arg1)) (m ((c : Thread nD τ).loc main_arg2)) (m ((c : Thread nD τ).loc main_arg3)) (m ((c : Thread nD τ).loc main_arg4))) := by
  have h : W6 m ρ c (Proc.devRef .tc main_v22) = W5 m ρ c (Proc.devRef .tc main_v22) := by stage6
  rw [h, W5_out]

/-! ## After the second region -/

theorem W7_out : W7 m ρ c (Proc.devRef .tc main_v34) = (out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W7_arr m ρ c 6).trans ?_
  rw [Region1.final (V6 m ρ) c, V6_h, V6_agg, V6_inv, V6_arg5, V6_arg6, V6_arg7]
  rfl
theorem W7_src : W7 m ρ c (Proc.devRef .tc main_v1) = (srcOf (m ((c : Thread nD τ).loc main_arg1))) := (W7_of_ne m ρ c main_v1 (by decide)).trans (W6_src m ρ c)
theorem W7_dst : W7 m ρ c (Proc.devRef .tc main_v3) = (dstOf (m ((c : Thread nD τ).loc main_arg1))) := (W7_of_ne m ρ c main_v3 (by decide)).trans (W6_dst m ρ c)
theorem W7_arg8 : W7 m ρ c (Proc.devRef .tc main_arg8) = (m ((c : Thread nD τ).loc main_arg8)) := (W7_of_ne m ρ c main_arg8 (by decide)).trans (W6_arg8 m ρ c)
theorem W7_arg9 : W7 m ρ c (Proc.devRef .tc main_arg9) = (m ((c : Thread nD τ).loc main_arg9)) := (W7_of_ne m ρ c main_arg9 (by decide)).trans (W6_arg9 m ρ c)
theorem W7_arg10 : W7 m ρ c (Proc.devRef .tc main_arg10) = (m ((c : Thread nD τ).loc main_arg10)) := (W7_of_ne m ρ c main_arg10 (by decide)).trans (W6_arg10 m ρ c)
theorem W7_out0 : W7 m ρ c (Proc.devRef .tc main_v22) = (out0 (m ((c : Thread nD τ).loc main_arg0)) (m ((c : Thread nD τ).loc main_arg1)) (m ((c : Thread nD τ).loc main_arg2)) (m ((c : Thread nD τ).loc main_arg3)) (m ((c : Thread nD τ).loc main_arg4))) := (W7_of_ne m ρ c main_v22 (by decide)).trans (W6_out m ρ c)
theorem W7_inv : W7 m ρ c (Proc.devRef .tc main_v11) = invOf (dstOf (m ((c : Thread nD τ).loc main_arg1))) :=
  (W7_arr m ρ c 2).trans ((((dat1 (V6 m ρ) c).arrAt_in 2 rfl _).trans (A_eq1 (V6 m ρ) c 2)).trans (V6_inv m ρ c))

/-! ## Before the third region -/

theorem W8_h : W8 m ρ c (Proc.devRef .tc main_v35) = reluOf (out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (relu2_stretch (W7 m ρ c)).trans ?_
  rw [W7_out]
theorem W8_src : W8 m ρ c (Proc.devRef .tc main_v1) = (srcOf (m ((c : Thread nD τ).loc main_arg1))) := by
  have h : W8 m ρ c (Proc.devRef .tc main_v1) = W7 m ρ c (Proc.devRef .tc main_v1) := by stage8
  rw [h, W7_src]
theorem W8_dst : W8 m ρ c (Proc.devRef .tc main_v3) = (dstOf (m ((c : Thread nD τ).loc main_arg1))) := by
  have h : W8 m ρ c (Proc.devRef .tc main_v3) = W7 m ρ c (Proc.devRef .tc main_v3) := by stage8
  rw [h, W7_dst]
theorem W8_inv : W8 m ρ c (Proc.devRef .tc main_v11) = invOf (dstOf (m ((c : Thread nD τ).loc main_arg1))) := by
  have h : W8 m ρ c (Proc.devRef .tc main_v11) = W7 m ρ c (Proc.devRef .tc main_v11) := by stage8
  rw [h, W7_inv]
theorem W8_out0 : W8 m ρ c (Proc.devRef .tc main_v22) = (out0 (m ((c : Thread nD τ).loc main_arg0)) (m ((c : Thread nD τ).loc main_arg1)) (m ((c : Thread nD τ).loc main_arg2)) (m ((c : Thread nD τ).loc main_arg3)) (m ((c : Thread nD τ).loc main_arg4))) := by
  have h : W8 m ρ c (Proc.devRef .tc main_v22) = W7 m ρ c (Proc.devRef .tc main_v22) := by stage8
  rw [h, W7_out0]
theorem W8_out : W8 m ρ c (Proc.devRef .tc main_v34) = (out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  have h : W8 m ρ c (Proc.devRef .tc main_v34) = W7 m ρ c (Proc.devRef .tc main_v34) := by stage8
  rw [h, W7_out]
theorem W8_arg8 : W8 m ρ c (Proc.devRef .tc main_arg8) = (m ((c : Thread nD τ).loc main_arg8)) := by
  have h : W8 m ρ c (Proc.devRef .tc main_arg8) = W7 m ρ c (Proc.devRef .tc main_arg8) := by stage8
  rw [h, W7_arg8]
theorem W8_arg9 : W8 m ρ c (Proc.devRef .tc main_arg9) = (m ((c : Thread nD τ).loc main_arg9)) := by
  have h : W8 m ρ c (Proc.devRef .tc main_arg9) = W7 m ρ c (Proc.devRef .tc main_arg9) := by stage8
  rw [h, W7_arg9]
theorem W8_arg10 : W8 m ρ c (Proc.devRef .tc main_arg10) = (m ((c : Thread nD τ).loc main_arg10)) := by
  have h : W8 m ρ c (Proc.devRef .tc main_arg10) = W7 m ρ c (Proc.devRef .tc main_arg10) := by stage8
  rw [h, W7_arg10]

theorem V9_h : V9 m ρ c main_v35 = reluOf (out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  have h : V9 m ρ c main_v35 = W8 m ρ c (Proc.devRef .tc main_v35) := by stage9
  rw [h, W8_h]
theorem V9_agg : V9 m ρ c main_v45 = aggOf (reluOf (out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) (srcOf (m ((c : Thread nD τ).loc main_arg1))) (dstOf (m ((c : Thread nD τ).loc main_arg1))) := by
  have h : V9 m ρ c main_v45 = aggOf (W8 m ρ c (Proc.devRef .tc main_v35)) (W8 m ρ c (Proc.devRef .tc main_v1)) (W8 m ρ c (Proc.devRef .tc main_v3)) := by stage9
  rw [h, W8_h, W8_src, W8_dst]
theorem V9_inv : V9 m ρ c main_v11 = invOf (dstOf (m ((c : Thread nD τ).loc main_arg1))) := by
  have h : V9 m ρ c main_v11 = W8 m ρ c (Proc.devRef .tc main_v11) := by stage9
  rw [h, W8_inv]
theorem V9_arg8 : V9 m ρ c main_arg8 = (m ((c : Thread nD τ).loc main_arg8)) := by
  have h : V9 m ρ c main_arg8 = W8 m ρ c (Proc.devRef .tc main_arg8) := by stage9
  rw [h, W8_arg8]
theorem V9_arg9 : V9 m ρ c main_arg9 = (m ((c : Thread nD τ).loc main_arg9)) := by
  have h : V9 m ρ c main_arg9 = W8 m ρ c (Proc.devRef .tc main_arg9) := by stage9
  rw [h, W8_arg9]
theorem V9_arg10 : V9 m ρ c main_arg10 = (m ((c : Thread nD τ).loc main_arg10)) := by
  have h : V9 m ρ c main_arg10 = W8 m ρ c (Proc.devRef .tc main_arg10) := by stage9
  rw [h, W8_arg10]
theorem W9_out0 : W9 m ρ c (Proc.devRef .tc main_v22) = (out0 (m ((c : Thread nD τ).loc main_arg0)) (m ((c : Thread nD τ).loc main_arg1)) (m ((c : Thread nD τ).loc main_arg2)) (m ((c : Thread nD τ).loc main_arg3)) (m ((c : Thread nD τ).loc main_arg4))) := by
  have h : W9 m ρ c (Proc.devRef .tc main_v22) = W8 m ρ c (Proc.devRef .tc main_v22) := by stage9
  rw [h, W8_out0]
theorem W9_out1 : W9 m ρ c (Proc.devRef .tc main_v34) = (out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  have h : W9 m ρ c (Proc.devRef .tc main_v34) = W8 m ρ c (Proc.devRef .tc main_v34) := by stage9
  rw [h, W8_out]

/-! ## At the last boundary: the three results -/

theorem W10_out2 : W10 m ρ c (Proc.devRef .tc main_v46) = (out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (W10_arr m ρ c 6).trans ?_
  rw [Region2.final (V9 m ρ) c, V9_h, V9_agg, V9_inv, V9_arg8, V9_arg9, V9_arg10]
  rfl
theorem W10_out0 : W10 m ρ c (Proc.devRef .tc main_v22) = (out0 (m ((c : Thread nD τ).loc main_arg0)) (m ((c : Thread nD τ).loc main_arg1)) (m ((c : Thread nD τ).loc main_arg2)) (m ((c : Thread nD τ).loc main_arg3)) (m ((c : Thread nD τ).loc main_arg4))) := (W10_of_ne m ρ c main_v22 (by decide)).trans (W9_out0 m ρ c)
theorem W10_out1 : W10 m ρ c (Proc.devRef .tc main_v34) = (out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := (W10_of_ne m ρ c main_v34 (by decide)).trans (W9_out1 m ρ c)

end Cert.Sage.Stages

end
-- ==== Proof.RefLayer.lean ====
/-
  The reference's layer, read at an index, and the bridge to the kernel's arrangement.

  The reference computes a layer as `h·Ws + (A / D)·Wn + b` with whole-array products on the host, `D` the clipped
  in-degree broadcast along each row. At an index `(r, j)` that is
  `(Σₖ h[r,k]·Ws[k,j]) + (Σₖ (A[r,k] / D[r])·Wn[k,j]) + b[j]` (`refLayer…_at`): a host product is the plain sum over the 64
  contracted positions, a quotient of arrays is the quotient entry by entry, and the two broadcasts read the degree of
  the row and the bias of the column. The kernel's arrangement multiplies `A[r,k]` by the reciprocal `1 / D[r]` kept as
  a column; with `D = max 1 deg` the two entries agree by the one law of Proof/SageLaw.lean (`refLayer…_eq_layer`),
  whatever the arrays hold.
-/
import proofs.«109321_j26998164422767_1_alg».proof.Proof.Gen.ReferenceIdeal.Read
import proofs.«109321_j26998164422767_1_alg».proof.Proof.LayerSpec
import Idealize.ShloMosaic.Lib.Pipeline.Value
import Idealize.ShloMosaic.Lib.ValueLayout

noncomputable section

open scoped BigOperators

namespace Cert.Sage.Ref

open Cert.ReferenceIdeal Cert.ReferenceIdeal.Gen Idealize.ShloMosaic Idealize.ShloMosaic.ValueIdx

/-- The clipped degree broadcast along the rows, at an index: the degree of the index's row. -/
theorem clip_col_at (dg : FVec Ideal S100000 .f32) (i : S100000x64.Idx) :
    broadcastInDim S100000x64 ![0, 1] bcast_S100000x1_S100000x64_0_1 (broadcastInDim S100000x1 ![0] bcast_S100000_S100000x1_0 dg) i
      = dg (ix1 ⟨(i 0).val, idx2_lt0 i⟩) := by
  refine (broadcastInDim_apply _ bcast_S100000x1_S100000x64_0_1 _ i (ix2 ⟨(i 0).val, idx2_lt0 i⟩ (0 : Fin 1)) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])).trans ?_
  exact broadcastInDim_apply _ bcast_S100000_S100000x1_0 dg _ (ix1 ⟨(i 0).val, idx2_lt0 i⟩) (fun a => match a with
    | ⟨0, _⟩ => by show (i 0).val = if (100000 : Nat) = 1 then 0 else (i 0).val; rw [if_neg (by decide)])

/-- A vector cast to a column reads, at `(r, 0)`, the vector's entry `r`. -/
theorem col_cast_at (x : FVec Ideal S100000 .f32) (h : S100000.ShapeCasts S100000x1) (r : Fin 100000) :
    shapeCast S100000x1 x h (ix2 r (0 : Fin 1)) = x (ix1 r) :=
  shapeCast_apply x h _ _ (by
    rw [Shape.rowMajor_val_two, Shape.rowMajor_val_one]
    show r.val = r.val * 1 + 0
    omega)

/-- The reciprocal column of a clipped degree, at row `r`: the reciprocal of the maximum of one and the count. -/
theorem inv_col_at (deg : FVec Ideal S100000 .f32) (h : S100000.ShapeCasts S100000x1) (r : Fin 100000) :
    shapeCast S100000x1
        (Host.divf (F := Ideal) (broadcastInDim S100000 ![] bcast_S_S100000 (constant (F := Ideal) S_ .f32 0x3F800000#32))
          (maximumf (F := Ideal) (broadcastInDim S100000 ![] bcast_S_S100000 (id (constant (F := Ideal) S_ .f32 0x3F800000#32))) deg)) h
        (ix2 r (0 : Fin 1))
      = Ideal.div 1 (max 1 (deg (ix1 r))) := by
  rw [col_cast_at]
  show Ideal.div (Ideal.ofBits .f32 0x3F800000#32) (max (Ideal.ofBits .f32 0x3F800000#32) (deg (ix1 r))) = _
  rw [ofBits_one_f32]

/-- The clipped degree at row `r`. -/
theorem clip_at (deg : FVec Ideal S100000 .f32) (r : Fin 100000) :
    maximumf (F := Ideal) (broadcastInDim S100000 ![] bcast_S_S100000 (id (constant (F := Ideal) S_ .f32 0x3F800000#32))) deg (ix1 r)
      = max 1 (deg (ix1 r)) := by
  show max (Ideal.ofBits .f32 0x3F800000#32) (deg (ix1 r)) = _
  rw [ofBits_one_f32]

/-! ### Width 64 -/

/-- A host product of a [100000, 64] array with a [64, 64] matrix, read at an index: the sum over the 64 contracted
    positions of the row of the left operand times the column of the right one. -/
theorem dot64_at (x : FVec Ideal S100000x64 .f32) (y : FVec Ideal S64x64 .f32) (i : S100000x64.Idx) :
    Host.dotGeneral (F := Ideal) dot_S100000x64_S64x64_S100000x64_1_0_0_1_n_n none x y i
      = ∑ k : Fin 64, x (ix2 ⟨(i 0).val, idx2_lt0 i⟩ k) * y (ix2 k ⟨(i 1).val, idx2_lt1 i⟩) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = ix2 ⟨(i 0).val, idx2_lt0 i⟩ k := funext fun a => Fin.ext (by
    match a with
    | ⟨0, _⟩ => exact Read.lhs_main_v22_0 _ _
    | ⟨1, _⟩ => exact (Read.lhs_main_v22_1 _ _).trans hk)
  have er : dot_S100000x64_S64x64_S100000x64_1_0_0_1_n_n.rhsIdx i ((ValueIdx.contrEquiv1 dot_S100000x64_S64x64_S100000x64_1_0_0_1_n_n 64 rfl rfl).symm k) = ix2 k ⟨(i 1).val, idx2_lt1 i⟩ := funext fun a => Fin.ext (by
    match a with
    | ⟨0, _⟩ => exact (Read.rhs_main_v22_0 _ _).trans hk
    | ⟨1, _⟩ => exact Read.rhs_main_v22_1 _ _)
  rw [el, er]

/-- The bias broadcast along the rows, at an index: the bias entry of the index's column. -/
theorem bias64_at (b : FVec Ideal S64 .f32) (i : S100000x64.Idx) :
    broadcastInDim S100000x64 ![0, 1] bcast_S1x64_S100000x64_0_1 (broadcastInDim S1x64 ![1] bcast_S64_S1x64_1 b) i
      = b (ix1 ⟨(i 1).val, idx2_lt1 i⟩) := by
  refine (broadcastInDim_apply _ bcast_S1x64_S100000x64_0_1 _ i (ix2 (0 : Fin 1) ⟨(i 1).val, idx2_lt1 i⟩) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])).trans ?_
  exact broadcastInDim_apply _ bcast_S64_S1x64_1 b _ (ix1 ⟨(i 1).val, idx2_lt1 i⟩) (fun a => match a with
    | ⟨0, _⟩ => by show (i 1).val = if (64 : Nat) = 1 then 0 else (i 1).val; rw [if_neg (by decide)])

/-- The reference's layer as it is printed: two whole-array products, the neighbour sums divided by the clipped
    degree broadcast along the rows, and the bias broadcast along the columns. -/
def refLayer64 (h a : FVec Ideal S100000x64 .f32) (dg : FVec Ideal S100000 .f32)
    (ws wn : FVec Ideal S64x64 .f32) (b : FVec Ideal S64 .f32) : FVec Ideal S100000x64 .f32 :=
  addf (F := Ideal) (addf (F := Ideal) (Host.dotGeneral (F := Ideal) dot_S100000x64_S64x64_S100000x64_1_0_0_1_n_n none h ws)
      (Host.dotGeneral (F := Ideal) dot_S100000x64_S64x64_S100000x64_1_0_0_1_n_n none
        (Host.divf (F := Ideal) a (broadcastInDim S100000x64 ![0, 1] bcast_S100000x1_S100000x64_0_1 (broadcastInDim S100000x1 ![0] bcast_S100000_S100000x1_0 dg))) wn))
    (broadcastInDim S100000x64 ![0, 1] bcast_S1x64_S100000x64_0_1 (broadcastInDim S1x64 ![1] bcast_S64_S1x64_1 b))

/-- The reference's layer at an index: `entryDiv` of the index's row and column. -/
theorem refLayer64_at (h a : FVec Ideal S100000x64 .f32) (dg : FVec Ideal S100000 .f32)
    (ws wn : FVec Ideal S64x64 .f32) (b : FVec Ideal S64 .f32) (i : S100000x64.Idx) :
    refLayer64 h a dg ws wn b i
      = entryDiv (fun k => h (ix2 ⟨(i 0).val, idx2_lt0 i⟩ k)) (fun k => a (ix2 ⟨(i 0).val, idx2_lt0 i⟩ k))
          (dg (ix1 ⟨(i 0).val, idx2_lt0 i⟩))
          (fun k => ws (ix2 k ⟨(i 1).val, idx2_lt1 i⟩)) (fun k => wn (ix2 k ⟨(i 1).val, idx2_lt1 i⟩))
          (b (ix1 ⟨(i 1).val, idx2_lt1 i⟩)) := by
  have ed : ∀ k : Fin 64, (Host.divf (F := Ideal) a (broadcastInDim S100000x64 ![0, 1] bcast_S100000x1_S100000x64_0_1 (broadcastInDim S100000x1 ![0] bcast_S100000_S100000x1_0 dg))) (ix2 ⟨(i 0).val, idx2_lt0 i⟩ k)
      = Ideal.div (a (ix2 ⟨(i 0).val, idx2_lt0 i⟩ k)) (dg (ix1 ⟨(i 0).val, idx2_lt0 i⟩)) := fun k => by
    show Ideal.div (a (ix2 ⟨(i 0).val, idx2_lt0 i⟩ k)) (broadcastInDim S100000x64 ![0, 1] bcast_S100000x1_S100000x64_0_1 (broadcastInDim S100000x1 ![0] bcast_S100000_S100000x1_0 dg) (ix2 ⟨(i 0).val, idx2_lt0 i⟩ k)) = _
    rw [clip_col_at]
  show (Host.dotGeneral (F := Ideal) dot_S100000x64_S64x64_S100000x64_1_0_0_1_n_n none h ws i + Host.dotGeneral (F := Ideal) dot_S100000x64_S64x64_S100000x64_1_0_0_1_n_n none _ wn i) + _ = _
  rw [dot64_at, dot64_at, bias64_at]
  unfold entryDiv
  simp only [ed]

/-- THE BRIDGE at width 64: the reference's layer over a clipped degree is the kernel's arrangement over the reciprocal
    column of the same clipped degree. -/
theorem refLayer64_eq_layer (h a : FVec Ideal S100000x64 .f32) (deg : FVec Ideal S100000 .f32)
    (hc : S100000.ShapeCasts S100000x1)
    (ws wn : FVec Ideal S64x64 .f32) (b : FVec Ideal S64 .f32) :
    refLayer64 h a (maximumf (F := Ideal) (broadcastInDim S100000 ![] bcast_S_S100000 (id (constant (F := Ideal) S_ .f32 0x3F800000#32))) deg) ws wn b
      = layer (d := 64) h a
          (shapeCast S100000x1
            (Host.divf (F := Ideal) (broadcastInDim S100000 ![] bcast_S_S100000 (constant (F := Ideal) S_ .f32 0x3F800000#32))
              (maximumf (F := Ideal) (broadcastInDim S100000 ![] bcast_S_S100000 (id (constant (F := Ideal) S_ .f32 0x3F800000#32))) deg)) hc)
          ws wn b := by
  funext i
  rw [refLayer64_at]
  unfold layer
  rw [inv_col_at, clip_at, entry_recip_eq]

/-! ### Width 16 -/

/-- A host product of a [100000, 64] array with a [64, 16] matrix, read at an index: the sum over the 64 contracted
    positions of the row of the left operand times the column of the right one. -/
theorem dot16_at (x : FVec Ideal S100000x64 .f32) (y : FVec Ideal S64x16 .f32) (i : S100000x16.Idx) :
    Host.dotGeneral (F := Ideal) dot_S100000x64_S64x16_S100000x16_1_0_0_1_n_n none x y i
      = ∑ k : Fin 64, x (ix2 ⟨(i 0).val, idx2_lt0 i⟩ k) * y (ix2 k ⟨(i 1).val, idx2_lt1 i⟩) := by
  simp only [Host.dotGeneral]
  rw [Ideal.dotGeneral_apply, ← Equiv.sum_comp (ValueIdx.contrEquiv1 dot_S100000x64_S64x16_S100000x16_1_0_0_1_n_n 64 rfl rfl).symm]
  refine Finset.sum_congr rfl fun k _ => ?_
  have hk := ValueIdx.contrEquiv1_symm_val dot_S100000x64_S64x16_S100000x16_1_0_0_1_n_n 64 rfl rfl k
  have el : dot_S100000x64_S64x16_S100000x16_1_0_0_1_n_n.lhsIdx i ((ValueIdx.contrEquiv1 dot_S100000x64_S64x16_S100000x16_1_0_0_1_n_n 64 rfl rfl).symm k) = ix2 ⟨(i 0).val, idx2_lt0 i⟩ k := funext fun a => Fin.ext (by
    match a with
    | ⟨0, _⟩ => exact Read.lhs_main_v72_0 _ _
    | ⟨1, _⟩ => exact (Read.lhs_main_v72_1 _ _).trans hk)
  have er : dot_S100000x64_S64x16_S100000x16_1_0_0_1_n_n.rhsIdx i ((ValueIdx.contrEquiv1 dot_S100000x64_S64x16_S100000x16_1_0_0_1_n_n 64 rfl rfl).symm k) = ix2 k ⟨(i 1).val, idx2_lt1 i⟩ := funext fun a => Fin.ext (by
    match a with
    | ⟨0, _⟩ => exact (Read.rhs_main_v72_0 _ _).trans hk
    | ⟨1, _⟩ => exact Read.rhs_main_v72_1 _ _)
  rw [el, er]

/-- The bias broadcast along the rows, at an index: the bias entry of the index's column. -/
theorem bias16_at (b : FVec Ideal S16 .f32) (i : S100000x16.Idx) :
    broadcastInDim S100000x16 ![0, 1] bcast_S1x16_S100000x16_0_1 (broadcastInDim S1x16 ![1] bcast_S16_S1x16_1 b) i
      = b (ix1 ⟨(i 1).val, idx2_lt1 i⟩) := by
  refine (broadcastInDim_apply _ bcast_S1x16_S100000x16_0_1 _ i (ix2 (0 : Fin 1) ⟨(i 1).val, idx2_lt1 i⟩) (fun a => match a with
    | ⟨0, _⟩ => by show 0 = if (1 : Nat) = 1 then 0 else (i 0).val; rw [if_pos rfl]
    | ⟨1, _⟩ => by show (i 1).val = if (16 : Nat) = 1 then 0 else (i 1).val; rw [if_neg (by decide)])).trans ?_
  exact broadcastInDim_apply _ bcast_S16_S1x16_1 b _ (ix1 ⟨(i 1).val, idx2_lt1 i⟩) (fun a => match a with
    | ⟨0, _⟩ => by show (i 1).val = if (16 : Nat) = 1 then 0 else (i 1).val; rw [if_neg (by decide)])

/-- The reference's layer as it is printed: two whole-array products, the neighbour sums divided by the clipped
    degree broadcast along the rows, and the bias broadcast along the columns. -/
def refLayer16 (h a : FVec Ideal S100000x64 .f32) (dg : FVec Ideal S100000 .f32)
    (ws wn : FVec Ideal S64x16 .f32) (b : FVec Ideal S16 .f32) : FVec Ideal S100000x16 .f32 :=
  addf (F := Ideal) (addf (F := Ideal) (Host.dotGeneral (F := Ideal) dot_S100000x64_S64x16_S100000x16_1_0_0_1_n_n none h ws)
      (Host.dotGeneral (F := Ideal) dot_S100000x64_S64x16_S100000x16_1_0_0_1_n_n none
        (Host.divf (F := Ideal) a (broadcastInDim S100000x64 ![0, 1] bcast_S100000x1_S100000x64_0_1 (broadcastInDim S100000x1 ![0] bcast_S100000_S100000x1_0 dg))) wn))
    (broadcastInDim S100000x16 ![0, 1] bcast_S1x16_S100000x16_0_1 (broadcastInDim S1x16 ![1] bcast_S16_S1x16_1 b))

/-- The reference's layer at an index: `entryDiv` of the index's row and column. -/
theorem refLayer16_at (h a : FVec Ideal S100000x64 .f32) (dg : FVec Ideal S100000 .f32)
    (ws wn : FVec Ideal S64x16 .f32) (b : FVec Ideal S16 .f32) (i : S100000x16.Idx) :
    refLayer16 h a dg ws wn b i
      = entryDiv (fun k => h (ix2 ⟨(i 0).val, idx2_lt0 i⟩ k)) (fun k => a (ix2 ⟨(i 0).val, idx2_lt0 i⟩ k))
          (dg (ix1 ⟨(i 0).val, idx2_lt0 i⟩))
          (fun k => ws (ix2 k ⟨(i 1).val, idx2_lt1 i⟩)) (fun k => wn (ix2 k ⟨(i 1).val, idx2_lt1 i⟩))
          (b (ix1 ⟨(i 1).val, idx2_lt1 i⟩)) := by
  have ed : ∀ k : Fin 64, (Host.divf (F := Ideal) a (broadcastInDim S100000x64 ![0, 1] bcast_S100000x1_S100000x64_0_1 (broadcastInDim S100000x1 ![0] bcast_S100000_S100000x1_0 dg))) (ix2 ⟨(i 0).val, idx2_lt0 i⟩ k)
      = Ideal.div (a (ix2 ⟨(i 0).val, idx2_lt0 i⟩ k)) (dg (ix1 ⟨(i 0).val, idx2_lt0 i⟩)) := fun k => by
    show Ideal.div (a (ix2 ⟨(i 0).val, idx2_lt0 i⟩ k)) (broadcastInDim S100000x64 ![0, 1] bcast_S100000x1_S100000x64_0_1 (broadcastInDim S100000x1 ![0] bcast_S100000_S100000x1_0 dg) (ix2 ⟨(i 0).val, idx2_lt0 i⟩ k)) = _
    rw [clip_col_at]
  show (Host.dotGeneral (F := Ideal) dot_S100000x64_S64x16_S100000x16_1_0_0_1_n_n none h ws i + Host.dotGeneral (F := Ideal) dot_S100000x64_S64x16_S100000x16_1_0_0_1_n_n none _ wn i) + _ = _
  rw [dot16_at, dot16_at, bias16_at]
  unfold entryDiv
  simp only [ed]

/-- THE BRIDGE at width 16. -/
theorem refLayer16_eq_layer (h a : FVec Ideal S100000x64 .f32) (deg : FVec Ideal S100000 .f32)
    (hc : S100000.ShapeCasts S100000x1)
    (ws wn : FVec Ideal S64x16 .f32) (b : FVec Ideal S16 .f32) :
    refLayer16 h a (maximumf (F := Ideal) (broadcastInDim S100000 ![] bcast_S_S100000 (id (constant (F := Ideal) S_ .f32 0x3F800000#32))) deg) ws wn b
      = layer (d := 16) h a
          (shapeCast S100000x1
            (Host.divf (F := Ideal) (broadcastInDim S100000 ![] bcast_S_S100000 (constant (F := Ideal) S_ .f32 0x3F800000#32))
              (maximumf (F := Ideal) (broadcastInDim S100000 ![] bcast_S_S100000 (id (constant (F := Ideal) S_ .f32 0x3F800000#32))) deg)) hc)
          ws wn b := by
  funext i
  rw [refLayer16_at]
  unfold layer
  rw [inv_col_at, clip_at, entry_recip_eq]

end Cert.Sage.Ref

end
-- ==== Proof.RefValue.lean ====
/-
  The reference's run with its three results at the closed terms of Proof/HostFns.lean.

  The reference's printed results are nested layers: the first is a layer of the input features, the second a layer
  of the maximum with zero of the first, the third (width 16) a layer of the maximum with zero of the second; each layer
  divides the neighbour sums by the clipped in-degree of the same edges. By the bridge of Proof/RefLayer.lean each
  layer is `layer` over the reciprocal column, so the three results are `out0`, `out1` and `out2` of the reference's
  own arguments (`ref0`, `ref1`, `ref2`), the inner layers rewritten first.
-/
import proofs.«109321_j26998164422767_1_alg».proof.Proof.Gen.ReferenceIdeal.Run
import proofs.«109321_j26998164422767_1_alg».proof.Proof.RefLayer
import proofs.«109321_j26998164422767_1_alg».proof.Proof.HostFns

set_option maxRecDepth 16384

noncomputable section

namespace Cert.Sage.Ref

open Cert.ReferenceIdeal Cert.ReferenceIdeal.Gen Idealize.ShloMosaic Idealize.ShloMosaic.TcCoe Idealize.SL.Sem
open Cert.Sage.Fns

section Terms
variable (feat : FVec Ideal S100000x64 .f32) (e : IVec S2x1600000 32)
  (ws0 wn0 : FVec Ideal S64x64 .f32) (b0 : FVec Ideal S64 .f32)
  (ws1 wn1 : FVec Ideal S64x64 .f32) (b1 : FVec Ideal S64 .f32)
  (ws2 wn2 : FVec Ideal S64x16 .f32) (b2 : FVec Ideal S16 .f32)

/-- The reference's first layer is `out0`. -/
theorem ref0 :
    refLayer64 feat (aggOf (F := Ideal) feat (srcOf (F := Ideal) e) (dstOf (F := Ideal) e)) (clipOf (F := Ideal) (dstOf (F := Ideal) e)) ws0 wn0 b0
      = out0 feat e ws0 wn0 b0 := by
  unfold out0 invOf clipOf
  exact refLayer64_eq_layer _ _ _ _ _ _ _

/-- The reference's second layer, over the maximum with zero of its first, is `out1`. -/
theorem ref1 :
    refLayer64
        (reluOf (F := Ideal) (refLayer64 feat (aggOf (F := Ideal) feat (srcOf (F := Ideal) e) (dstOf (F := Ideal) e)) (clipOf (F := Ideal) (dstOf (F := Ideal) e)) ws0 wn0 b0))
        (aggOf (F := Ideal) (reluOf (F := Ideal) (refLayer64 feat (aggOf (F := Ideal) feat (srcOf (F := Ideal) e) (dstOf (F := Ideal) e)) (clipOf (F := Ideal) (dstOf (F := Ideal) e)) ws0 wn0 b0))
          (srcOf (F := Ideal) e) (dstOf (F := Ideal) e))
        (clipOf (F := Ideal) (dstOf (F := Ideal) e)) ws1 wn1 b1
      = out1 feat e ws0 wn0 b0 ws1 wn1 b1 := by
  rw [ref0 feat e ws0 wn0 b0]
  unfold out1 invOf clipOf
  exact refLayer64_eq_layer _ _ _ _ _ _ _

/-- The reference's last layer, over the maximum with zero of its second, is `out2`. -/
theorem ref2 :
    refLayer16
        (reluOf (F := Ideal) (refLayer64
          (reluOf (F := Ideal) (refLayer64 feat (aggOf (F := Ideal) feat (srcOf (F := Ideal) e) (dstOf (F := Ideal) e)) (clipOf (F := Ideal) (dstOf (F := Ideal) e)) ws0 wn0 b0))
          (aggOf (F := Ideal) (reluOf (F := Ideal) (refLayer64 feat (aggOf (F := Ideal) feat (srcOf (F := Ideal) e) (dstOf (F := Ideal) e)) (clipOf (F := Ideal) (dstOf (F := Ideal) e)) ws0 wn0 b0))
            (srcOf (F := Ideal) e) (dstOf (F := Ideal) e))
          (clipOf (F := Ideal) (dstOf (F := Ideal) e)) ws1 wn1 b1))
        (aggOf (F := Ideal) (reluOf (F := Ideal) (refLayer64
          (reluOf (F := Ideal) (refLayer64 feat (aggOf (F := Ideal) feat (srcOf (F := Ideal) e) (dstOf (F := Ideal) e)) (clipOf (F := Ideal) (dstOf (F := Ideal) e)) ws0 wn0 b0))
          (aggOf (F := Ideal) (reluOf (F := Ideal) (refLayer64 feat (aggOf (F := Ideal) feat (srcOf (F := Ideal) e) (dstOf (F := Ideal) e)) (clipOf (F := Ideal) (dstOf (F := Ideal) e)) ws0 wn0 b0))
            (srcOf (F := Ideal) e) (dstOf (F := Ideal) e))
          (clipOf (F := Ideal) (dstOf (F := Ideal) e)) ws1 wn1 b1))
          (srcOf (F := Ideal) e) (dstOf (F := Ideal) e))
        (clipOf (F := Ideal) (dstOf (F := Ideal) e)) ws2 wn2 b2
      = out2 feat e ws0 wn0 b0 ws1 wn1 b1 ws2 wn2 b2 := by
  rw [ref1 feat e ws0 wn0 b0 ws1 wn1 b1]
  unfold out2 invOf clipOf
  exact refLayer16_eq_layer _ _ _ _ _ _ _

end Terms

/-! ## The run -/

variable (m : (ℓ : Loc nD τ sig) → Buf (Elt Ideal) ℓ) (ρ : Dev nD → PrngReg)

/-- Every weakly fair execution of the reference terminates with its three results at `out2`, `out0`, `out1` of its
    arguments, the arguments unchanged. -/
theorem run_out : θ_run (defs (F := Ideal)) (onTc (τ := τ) (main (F := Ideal))) ⟨m, fun _ => 0, ρ⟩ fun r => ∀ c : Dev nD,
      r.2.mem ((c.tc : Thread nD τ).loc main_v77) = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v27) = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v52) = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run (defs (F := Ideal)) _ _).mono (fun r h c =>
      ⟨(h c).1.trans (ref2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))),
       (h c).2.1.trans (ref0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))),
       (h c).2.2.1.trans (ref1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))),
       (h c).2.2.2⟩)
    (Cert.ReferenceIdeal.Value.run (F := Ideal) m ρ)

end Cert.Sage.Ref

end
-- ==== Proof.lean ====
/-
  The certificate of a three-layer mean-aggregating graph network: a kernel program of three pipelined regions
  among host gathers and scatter-adds, against a plain host reference.

  Both programs compute, layer by layer, `h·Ws + (A ÷ D)·Wn + b` where `A` holds each node's sum of in-neighbour
  features and `D` its in-degree clipped below at one. The kernel keeps `1 / D` as a column and multiplies; the
  reference divides. On the extended reals a quotient by a divisor other than zero is the product with its inverse, and
  a value clipped at one is never zero, so the two agree entry by entry whatever the arrays hold (Proof/SageLaw.lean);
  the block products of the kernel and the whole-array products of the reference are the same sums
  (Proof/KernelDots.lean, Proof/RefLayer.lean), and the ten row blocks of each region tile its output array
  (Proof/Region0.lean and its two siblings). The gathers, scatter-adds and maxima with zero are the same host
  operations on both sides and are never opened.

  The three frames: the two kernel programs' are the generated ones; the reference's is its run with the results dropped.
  The idealization rewrote nothing, so its conjunct is `True`. The algebraic conjunct sets the kernel's run with its
  results named (Proof/KernelRun.lean, read through the boundaries in Proof/HostStages.lean) beside the reference's
  (Proof/RefValue.lean): both end at `out2`, `out0`, `out1` of arguments that agree.
-/
import proofs.«109321_j26998164422767_1_alg».proof.Defs
import proofs.«109321_j26998164422767_1_alg».proof.Proof.Gen.Kernel
import proofs.«109321_j26998164422767_1_alg».proof.Proof.Gen.Kernel.Skeleton
import proofs.«109321_j26998164422767_1_alg».proof.Proof.Gen.Kernel.Launch
import proofs.«109321_j26998164422767_1_alg».proof.Proof.Gen.Kernel.Points
import proofs.«109321_j26998164422767_1_alg».proof.Proof.Gen.Kernel.Frame
import proofs.«109321_j26998164422767_1_alg».proof.Proof.Gen.KernelIdeal
import proofs.«109321_j26998164422767_1_alg».proof.Proof.Gen.KernelIdeal.Skeleton
import proofs.«109321_j26998164422767_1_alg».proof.Proof.Gen.KernelIdeal.Launch
import proofs.«109321_j26998164422767_1_alg».proof.Proof.Gen.KernelIdeal.Points
import proofs.«109321_j26998164422767_1_alg».proof.Proof.Gen.KernelIdeal.Frame
import proofs.«109321_j26998164422767_1_alg».proof.Proof.Gen.ReferenceIdeal
import proofs.«109321_j26998164422767_1_alg».proof.Proof.Gen.ReferenceIdeal.Run
import proofs.«109321_j26998164422767_1_alg».proof.Proof.Gen.ReferenceIdeal.Read
import proofs.«109321_j26998164422767_1_alg».proof.Proof.Gen.Pre_finite_inputs
import proofs.«109321_j26998164422767_1_alg».proof.Proof.KernelRun
import proofs.«109321_j26998164422767_1_alg».proof.Proof.HostStages
import proofs.«109321_j26998164422767_1_alg».proof.Proof.RefValue
import Idealize.ShloMosaic.Adequacy
import Idealize.ShloMosaic.Init

noncomputable section

namespace Cert.Proof

open Idealize.ShloMosaic Idealize.SL.Sem
open Cert.Sage.Fns

/-- The reference runs and leaves its arguments as launched: its run, the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- From memories that agree on the eleven arguments both programs end with their three results at `out2`, `out0`
    and `out1` of the arguments. -/
theorem algebraic : Cert.algebraic_KernelIdeal_ReferenceIdeal := by
  intro m ρ m' ρ' _ hagree
  refine ⟨fun c => out2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run (Cert.KernelIdeal.defs (F := Ideal)) _ _).mono (fun r h c =>
      ⟨(h c).1.trans (Cert.Sage.Stages.W10_out2 m ρ c), (h c).2.1.trans (Cert.Sage.Stages.W10_out0 m ρ c),
       (h c).2.2.1.trans (Cert.Sage.Stages.W10_out1 m ρ c), (h c).2.2.2⟩)
      (Cert.KernelIdeal.Named.run_named (F := Ideal) m ρ)
  · refine (θ_run (Cert.ReferenceIdeal.defs (F := Ideal)) _ _).mono (fun r h c => ?_) (Cert.Sage.Ref.run_out m' ρ')
    obtain ⟨a0, a1, a2, a3, a4, a5, a6, a7, a8, a9, a10⟩ := hagree c
    obtain ⟨r0, r1, r2, rest⟩ := h c
    refine ⟨r0.trans ?_, r1.trans ?_, r2.trans ?_, rest⟩
    · rw [a0, a1, a2, a3, a4, a5, a6, a7, a8, a9, a10]
    · rw [a0, a1, a2, a3, a4]
    · rw [a0, a1, a2, a3, a4, a5, a6, a7]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
